-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2 : Shape := ⟨3, ![2, 4096, 2]⟩
abbrev S2x32768x2 : Shape := ⟨3, ![2, 32768, 2]⟩
abbrev S_ : Shape := ⟨0, ![]⟩

class Facts : Prop where
  bcast_S_S2x4096x2 : S_.BroadcastsInDim S2x4096x2 (![] : Fin 0 → Fin S2x4096x2.rank)
  reducesTo_S2x4096x2_S_d0_1_2 : S2x4096x2.ReducesTo [0, 1, 2] S_
  h_S_ : 0 < S_.numel
  bcast_S_S2x32768x2 : S_.BroadcastsInDim S2x32768x2 (![] : Fin 0 → Fin S2x32768x2.rank)
  reducesTo_S2x32768x2_S_d0_1_2 : S2x32768x2.ReducesTo [0, 1, 2] S_

variable [Facts]

def fn {F : FTy → Type} [FloatOps F] (main_arg0 : FVec F S2x4096x2 .f32) (main_arg1 : FVec F S2x32768x2 .f32) : IVec S_ 1 :=
  let main_v0 : FVec F S2x4096x2 .f32 := Host.absf main_arg0
  let main_cst : FVec F S_ .f32 := constant S_ .f32 0x7F800000#32
  let main_v1 : FVec F S2x4096x2 .f32 := broadcastInDim S2x4096x2 ![] bcast_S_S2x4096x2 main_cst
  let main_v2 : IVec S2x4096x2 1 := cmpf .olt main_v0 main_v1
  let main_c : IVec S_ 1 := constantI S_ 1 1#1
  let main_v3 : IVec S_ 1 := (fun x v => Host.reduce IntOp.andi x v reducesTo_S2x4096x2_S_d0_1_2 h_S_) main_v2 main_c
  let main_v4 : FVec F S2x32768x2 .f32 := Host.absf main_arg1
  let main_cst_0 : FVec F S_ .f32 := constant S_ .f32 0x7F800000#32
  let main_v5 : FVec F S2x32768x2 .f32 := broadcastInDim S2x32768x2 ![] bcast_S_S2x32768x2 main_cst_0
  let main_v6 : IVec S2x32768x2 1 := cmpf .olt main_v4 main_v5
  let main_c_1 : IVec S_ 1 := constantI S_ 1 1#1
  let main_v7 : IVec S_ 1 := (fun x v => Host.reduce IntOp.andi x v reducesTo_S2x32768x2_S_d0_1_2 h_S_) main_v6 main_c_1
  let main_v8 : IVec S_ 1 := andi main_v3 main_v7
  main_v8
-- ==== Kernel.lean ====
abbrev S2x4096x2 : Shape := ⟨3, ![2, 4096, 2]⟩
abbrev S2x32768x2 : Shape := ⟨3, ![2, 32768, 2]⟩
abbrev S1x4096x2 : Shape := ⟨3, ![1, 4096, 2]⟩
abbrev S4096x2 : Shape := ⟨2, ![4096, 2]⟩
abbrev S1x32768x2 : Shape := ⟨3, ![1, 32768, 2]⟩
abbrev S32768x2 : Shape := ⟨2, ![32768, 2]⟩
abbrev S2x4096 : Shape := ⟨2, ![2, 4096]⟩
abbrev S2x32768 : Shape := ⟨2, ![2, 32768]⟩
abbrev S1x4096 : Shape := ⟨2, ![1, 4096]⟩
abbrev S2x512 : Shape := ⟨2, ![2, 512]⟩
abbrev S2048x2 : Shape := ⟨2, ![2048, 2]⟩
abbrev S1x512 : Shape := ⟨2, ![1, 512]⟩
abbrev S2048x1 : Shape := ⟨2, ![2048, 1]⟩
abbrev S2048x512 : Shape := ⟨2, ![2048, 512]⟩
abbrev S512 : Shape := ⟨1, ![512]⟩
abbrev S1x32768 : Shape := ⟨2, ![1, 32768]⟩
abbrev S2x2048 : Shape := ⟨2, ![2, 2048]⟩
abbrev S512x2 : Shape := ⟨2, ![512, 2]⟩
abbrev S1x2048 : Shape := ⟨2, ![1, 2048]⟩
abbrev S512x1 : Shape := ⟨2, ![512, 1]⟩
abbrev S512x2048 : Shape := ⟨2, ![512, 2048]⟩
abbrev S2048 : Shape := ⟨1, ![2048]⟩
abbrev S_ : Shape := ⟨0, ![]⟩

abbrev nBuf : Space → Nat
  | .hbm => 16
  | .vmem => 14
  | .smem => 0
  | _ => 0

abbrev bufTy : (tb : Table) → Fin (tcTables nBuf tb) → BufTy
  | .hbm, ⟨0, _⟩ => ⟨S2x4096x2, .f32⟩
  | .hbm, ⟨1, _⟩ => ⟨S2x32768x2, .f32⟩
  | .hbm, ⟨2, _⟩ => ⟨S1x4096x2, .f32⟩
  | .hbm, ⟨3, _⟩ => ⟨S4096x2, .f32⟩
  | .hbm, ⟨4, _⟩ => ⟨S1x32768x2, .f32⟩
  | .hbm, ⟨5, _⟩ => ⟨S32768x2, .f32⟩
  | .hbm, ⟨6, _⟩ => ⟨S32768x2, .f32⟩
  | .hbm, ⟨7, _⟩ => ⟨S2x4096, .f32⟩
  | .hbm, ⟨8, _⟩ => ⟨S2x32768, .f32⟩
  | .hbm, ⟨9, _⟩ => ⟨S1x4096, .f32⟩
  | .hbm, ⟨10, _⟩ => ⟨S1x32768, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S2x512, .f32⟩
  | .local _ .vmem, ⟨1, _⟩ => ⟨S2x512, .f32⟩
  | .local _ .vmem, ⟨2, _⟩ => ⟨S2048x2, .f32⟩
  | .local _ .vmem, ⟨3, _⟩ => ⟨S2048x2, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S2x2048, .f32⟩
  | .local _ .vmem, ⟨8, _⟩ => ⟨S2x2048, .f32⟩
  | .local _ .vmem, ⟨9, _⟩ => ⟨S512x2, .f32⟩
  | .local _ .vmem, ⟨10, _⟩ => ⟨S512x2, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S2x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_9 : BitVec 32 := 0#32
  let v32 : BitVec 1 := Scalar.cmpi .ne v31 c0_i32_9
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_9 : BitVec 32 := 0#32
  let v32 : BitVec 1 := Scalar.cmpi .ne v31 c0_i32_9
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x4096x2_S1x4096x2_0_0_0 : S2x4096x2.Slices ![0, 0, 0] S1x4096x2
  shapeCasts_S1x4096x2_S4096x2 : S1x4096x2.ShapeCasts S4096x2
  slices_S2x32768x2_S1x32768x2_1_0_0 : S2x32768x2.Slices ![1, 0, 0] S1x32768x2
  shapeCasts_S1x32768x2_S32768x2 : S1x32768x2.ShapeCasts S32768x2
  transposes_S4096x2_S2x4096_1_0 : S4096x2.Transposes [1, 0] S2x4096
  transposes_S32768x2_S2x32768_1_0 : S32768x2.Transposes [1, 0] S2x32768
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  slices_S2048x2_o0_0_S2048x1 : S2048x2.Slices ![0, 0] S2048x1
  slices_S2048x2_o0_1_S2048x1 : S2048x2.Slices ![0, 1] S2048x1
  inb_S2x512_S2x512_0_0 : ∀ a, (![0, 0] : Fin 2 → Nat) a + S2x512.size a ≤ S2x512.size a
  h_S2x512 : 0 < S2x512.numel
  shapeCasts_S2x512_S2x512 : S2x512.ShapeCasts S2x512
  slices_S2x512_o0_0_S1x512 : S2x512.Slices ![0, 0] S1x512
  slices_S2x512_o1_0_S1x512 : S2x512.Slices ![1, 0] S1x512
  broadcasts_S2048x1_S2048x512 : S2048x1.Broadcasts S2048x512
  broadcasts_S1x512_S2048x512 : S1x512.Broadcasts S2048x512
  reduces_S2048x512_S512 : S2048x512.Reduces [0] S512
  shapeCasts_S512_S1x512 : S512.ShapeCasts S1x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x2_S512x2_0_0 : ∀ a, (![0, 0] : Fin 2 → Nat) a + S512x2.size a ≤ S512x2.size a
  h_S512x2 : 0 < S512x2.numel
  shapeCasts_S512x2_S512x2 : S512x2.ShapeCasts S512x2
  slices_S512x2_o0_0_S512x1 : S512x2.Slices ![0, 0] S512x1
  slices_S512x2_o0_1_S512x1 : S512x2.Slices ![0, 1] S512x1
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  slices_S2x2048_o0_0_S1x2048 : S2x2048.Slices ![0, 0] S1x2048
  slices_S2x2048_o1_0_S1x2048 : S2x2048.Slices ![1, 0] S1x2048
  broadcasts_S512x1_S512x2048 : S512x1.Broadcasts S512x2048
  broadcasts_S1x2048_S512x2048 : S1x2048.Broadcasts S512x2048
  reduces_S512x2048_S2048 : S512x2048.Reduces [0] S2048
  shapeCasts_S2048_S1x2048 : S2048.ShapeCasts S1x2048
  reducesTo_S1x4096_S_d0_1 : S1x4096.ReducesTo [0, 1] S_
  h_S_ : 0 < S_.numel
  reducesTo_S1x32768_S_d0_1 : S1x32768.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512.size a ≤ S2x4096.size a
  hwx0_0 : ∀ i : grid0.Coords, EltTy.bits .f32 = 32 ∨ (Rect.block (s := S2x4096) S2x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S32768x2.size a
  hwx0_1 : ∀ i : grid0.Coords, EltTy.bits .f32 = 32 ∨ (Rect.block (s := S32768x2) S2048x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x2048.size a ≤ S2x32768.size a
  hwx1_0 : ∀ i : grid1.Coords, EltTy.bits .f32 = 32 ∨ (Rect.block (s := S2x32768) S2x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2.size a ≤ S4096x2.size a
  hwx1_1 : ∀ i : grid1.Coords, EltTy.bits .f32 = 32 ∨ (Rect.block (s := S4096x2) S512x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x32768.size a
  hwx1_2 : ∀ i : grid1.Coords, EltTy.bits .f32 = 32 ∨ (Rect.block (s := S1x32768) S1x2048.size (cc1_transform_2 i) (hinb1_2 i)).WholeWords (EltTy.packing .f32)

variable [Facts₀]

abbrev win0_0 : Pipeline.Window sig grid0 :=
  Pipeline.Window.ofSpec (Memref.whole main_v5) S2x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v6) S2x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x4096x2 : Shape := ⟨3, ![2, 4096, 2]⟩
abbrev S2x32768x2 : Shape := ⟨3, ![2, 32768, 2]⟩
abbrev S1x4096x2 : Shape := ⟨3, ![1, 4096, 2]⟩
abbrev S4096x2 : Shape := ⟨2, ![4096, 2]⟩
abbrev S1x32768x2 : Shape := ⟨3, ![1, 32768, 2]⟩
abbrev S32768x2 : Shape := ⟨2, ![32768, 2]⟩
abbrev S_ : Shape := ⟨0, ![]⟩
abbrev S4096 : Shape := ⟨1, ![4096]⟩
abbrev S4096x1 : Shape := ⟨2, ![4096, 1]⟩
abbrev S32768 : Shape := ⟨1, ![32768]⟩
abbrev S1x32768 : Shape := ⟨2, ![1, 32768]⟩
abbrev S4096x32768 : Shape := ⟨2, ![4096, 32768]⟩
abbrev S2x32768 : Shape := ⟨2, ![2, 32768]⟩

abbrev nBuf : Space → Nat
  | .hbm => 37
  | .vmem => 0
  | .smem => 0
  | _ => 0

abbrev bufTy : (tb : Table) → Fin (tcTables nBuf tb) → BufTy
  | .hbm, ⟨0, _⟩ => ⟨S2x4096x2, .f32⟩
  | .hbm, ⟨1, _⟩ => ⟨S2x32768x2, .f32⟩
  | .hbm, ⟨2, _⟩ => ⟨S1x4096x2, .f32⟩
  | .hbm, ⟨3, _⟩ => ⟨S4096x2, .f32⟩
  | .hbm, ⟨4, _⟩ => ⟨S1x32768x2, .f32⟩
  | .hbm, ⟨5, _⟩ => ⟨S32768x2, .f32⟩
  | .hbm, ⟨6, _⟩ => ⟨S32768x2, .f32⟩
  | .hbm, ⟨7, _⟩ => ⟨S4096x2, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S32768x2, .f32⟩
  | .hbm, ⟨12, _⟩ => ⟨S_, .f32⟩
  | .hbm, ⟨13, _⟩ => ⟨S32768, .f32⟩
  | .hbm, ⟨14, _⟩ => ⟨S1x32768, .f32⟩
  | .hbm, ⟨15, _⟩ => ⟨S4096x32768, .f32⟩
  | .hbm, ⟨16, _⟩ => ⟨S4096x32768, .f32⟩
  | .hbm, ⟨17, _⟩ => ⟨S4096x32768, .f32⟩
  | .hbm, ⟨18, _⟩ => ⟨S2x32768, .f32⟩
  | .hbm, ⟨19, _⟩ => ⟨S4096x32768, .f32⟩
  | .hbm, ⟨20, _⟩ => ⟨S_, .f32⟩
  | .hbm, ⟨21, _⟩ => ⟨S4096x32768, .f32⟩
  | .hbm, ⟨22, _⟩ => ⟨S4096x32768, .f32⟩
  | .hbm, ⟨23, _⟩ => ⟨S4096x32768, .f32⟩
  | .hbm, ⟨24, _⟩ => ⟨S_, .f32⟩
  | .hbm, ⟨25, _⟩ => ⟨S4096x32768, .f32⟩
  | .hbm, ⟨26, _⟩ => ⟨S4096x32768, .f32⟩
  | .hbm, ⟨27, _⟩ => ⟨S4096x32768, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32768, .f32⟩
  | .hbm, ⟨34, _⟩ => ⟨S_, .f32⟩
  | .hbm, ⟨35, _⟩ => ⟨S_, .f32⟩
  | .hbm, ⟨36, _⟩ => ⟨S_, .f32⟩
  | _, _ => ⟨S2x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  slices_S2x4096x2_S1x4096x2_0_0_0 : S2x4096x2.Slices ![0, 0, 0] S1x4096x2
  shapeCasts_S1x4096x2_S4096x2 : S1x4096x2.ShapeCasts S4096x2
  slices_S2x32768x2_S1x32768x2_1_0_0 : S2x32768x2.Slices ![1, 0, 0] S1x32768x2
  shapeCasts_S1x32768x2_S32768x2 : S1x32768x2.ShapeCasts S32768x2
  reducesTo_S4096x2_S4096_d1 : S4096x2.ReducesTo [1] S4096
  h_S_ : 0 < S_.numel
  bcast_S4096_S4096x1_0 : S4096.BroadcastsInDim S4096x1 (![0] : Fin 1 → Fin S4096x1.rank)
  reducesTo_S32768x2_S32768_d1 : S32768x2.ReducesTo [1] S32768
  bcast_S32768_S1x32768_1 : S32768.BroadcastsInDim S1x32768 (![1] : Fin 1 → Fin S1x32768.rank)
  bcast_S4096x1_S4096x32768_0_1 : S4096x1.BroadcastsInDim S4096x32768 (![0, 1] : Fin 2 → Fin S4096x32768.rank)
  bcast_S1x32768_S4096x32768_0_1 : S1x32768.BroadcastsInDim S4096x32768 (![0, 1] : Fin 2 → Fin S4096x32768.rank)
  transposes_S32768x2_S2x32768_1_0 : S32768x2.Transposes [1, 0] S2x32768
  bcast_S_S4096x32768 : S_.BroadcastsInDim S4096x32768 (![] : Fin 0 → Fin S4096x32768.rank)
  reducesTo_S4096x32768_S4096_d1 : S4096x32768.ReducesTo [1] S4096
  reducesTo_S4096_S_d0 : S4096.ReducesTo [0] S_
  reducesTo_S4096x32768_S32768_d0 : S4096x32768.ReducesTo [0] S32768
  reducesTo_S32768_S_d0 : S32768.ReducesTo [0] S_
  dot_S4096x2_S2x32768_S4096x32768_1_0_0_1_n_n_wf : DotDims.WF S4096x2 S2x32768 S4096x32768 [1] [0] [0] [1] [] []

variable [Facts₀]

def dot_S4096x2_S2x32768_S4096x32768_1_0_0_1_n_n : DotDims S4096x2 S2x32768 S4096x32768 where
  lhsContracting := [1]
  rhsContracting := [0]
  lhsNonContracting := [0]
  rhsNonContracting := [1]
  lhsBatch := []
  rhsBatch := []
  wf := dot_S4096x2_S2x32768_S4096x32768_1_0_0_1_n_n_wf

class Facts : Prop extends Facts₀ where

variable [Facts]
-- ==== Proof.KRowScoped.lean ====
/-
  The scoped buffers of the core that are no staging buffer of the row-minimum kernel: its scratch, which holds the
  running minimum, and the second kernel's staging buffers and scratch, which it never touches.  What the region is
  handed at its entry — each of them at some contents, and the generator register — sorted into the scratch on one side
  and the rest on the other, and back.
-/
import proofs.«106404_j2714419331831_1_alg».proof.Proof.Gen.Kernel.Launch
import Idealize.ShloMosaic.Lib.Pipeline.Frame

noncomputable section

namespace Cert.Kernel.RowMin

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch, as the memref the body is handed. -/
abbrev scr : Memref sig .tc .vmem S1x512 .f32 := Memref.whole cc0_scratch0

/-- The core's other scoped buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scratch at anything, the other scoped buffers, the generator register. -/
abbrev Entry (c : Dev nD) : sProp 𝕄 :=
  iprop(((∃ d, owns (c : Thread nD τ) scr fullShare d) ∗ others c) ∗ (∃ r, prngReg c r))

/-- What the region is entered with, sorted. -/
theorem PhiA_open (c : Dev nD) : (Pipeline.ΦA spec0 c : sProp 𝕄) ⊢ Entry c := by
  unfold Pipeline.ΦA Entry others; rw [scopedRest0_eq]; simp only [scr, owns_whole]
  iintro ⟨⟨Hs, Ha, Hb, Hc, Hd, He, Hf, Hh⟩, Hg⟩
  isplitl [Hs Ha Hb Hc Hd He Hf Hh]
  · isplitl [Hs]; · iexact Hs
    isplitl [Ha]; · iexact Ha
    isplitl [Hb]; · iexact Hb
    isplitl [Hc]; · iexact Hc
    isplitl [Hd]; · iexact Hd
    isplitl [He]; · iexact He
    isplitl [Hf]; · iexact Hf
    iexact Hh
  iexact Hg

/-- And put back. -/
theorem PhiA_close (c : Dev nD) : Entry c ⊢ (Pipeline.ΦA spec0 c : sProp 𝕄) := by
  unfold Pipeline.ΦA Entry others; rw [scopedRest0_eq]; simp only [scr, owns_whole]
  iintro ⟨⟨Hs, Ha, Hb, Hc, Hd, He, Hf, Hh⟩, Hg⟩
  isplitl [Hs Ha Hb Hc Hd He Hf Hh]
  · isplitl [Hs]; · iexact Hs
    isplitl [Ha]; · iexact Ha
    isplitl [Hb]; · iexact Hb
    isplitl [Hc]; · iexact Hc
    isplitl [Hd]; · iexact Hd
    isplitl [He]; · iexact He
    isplitl [Hf]; · iexact Hf
    iexact Hh
  iexact Hg

end Cert.Kernel.RowMin

end
-- ==== Proof.KRowMin.lean ====
/-
  The row-minimum kernel, one grid point at a time.  The grid is 8 blocks of 512 points by 16 tiles of 2048 polyline
  points, the tile index moving fastest: a grid point's position in its sweep is its index modulo 16.  The body keeps a
  running minimum, one entry per point of the block, in a scratch buffer: at the first tile of a sweep it resets the
  scratch to +∞; at every tile it lowers the scratch to the minimum of what it holds and this tile's column minima;
  at the last tile it copies the scratch into the output block, which the pipeline then writes back.
-/
import proofs.«106404_j2714419331831_1_alg».proof.Proof.Gen.Kernel.Launch
import proofs.«106404_j2714419331831_1_alg».proof.Proof.Gen.Kernel.Skeleton
import proofs.«106404_j2714419331831_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
import proofs.«106404_j2714419331831_1_alg».proof.Proof.KRowScoped

set_option maxRecDepth 16384

noncomputable section

namespace Cert.Kernel.RowMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stands in its sweep -/

/-- The body's first branch: the tile index is 0. -/
abbrev isFirst (i : grid0.Coords) : Prop :=
  (Scalar.cmpi .ne (Scalar.extui (Scalar.cmpi .eq (BitVec.ofNat 32 (i 1).val) 0#32)) 0#32) = 1#1
/-- The body's second branch: the tile index is the last. -/
abbrev isLast (i : grid0.Coords) : Prop := k0_cond2 i = 1#1

theorem isFirst_iff : ∀ t : Fin cfg0.N, isFirst (grid0.coords t) ↔ t.val % 16 = 0 :=
  (by decide +kernel : ∀ t : Fin grid0.N, isFirst (grid0.coords t) ↔ t.val % 16 = 0)
theorem isLast_iff : ∀ t : Fin cfg0.N, isLast (grid0.coords t) ↔ t.val % 16 = 15 :=
  (by decide +kernel : ∀ t : Fin grid0.N, isLast (grid0.coords t) ↔ t.val % 16 = 15)

/-- The two input windows are live at every point. -/
theorem live_lanes : ∀ t : Fin cfg0.N, cfg0.idle 0 (grid0.coords t) = false := by decide +kernel
theorem live_tile : ∀ t : Fin cfg0.N, cfg0.idle 1 (grid0.coords t) = false := by decide +kernel
/-- Off the last tile the output window is idle and is not written back; -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- on the last tile it is live. -/
theorem live_out : ∀ t : Fin cfg0.N, isLast (grid0.coords t) → cfg0.idle 2 (grid0.coords t) = false := by decide +kernel

/-- Every access of the body starts at the origin of its buffer. -/
theorem origin : (![0, 0] : Fin 2 → Nat) = fun _ => 0 := funext fun a => by fin_cases a <;> rfl

/-! ## The body's run, by the point's place in its sweep

On whole memrefs — the two input blocks at contents `x0` (the block the minima are taken for, coordinates by rows) and `x1`
(the tile of the other set, coordinates by columns), the output block and the scratch as stated — the body runs to its end,
leaving the inputs as they were and the scratch lowered by this tile's minima. -/

set_option maxHeartbeats 1000000 in
/-- First tile of a sweep: the scratch, whatever it held, is reset and then lowered; the output block is untouched. -/
theorem run_first (c : Dev nD) (E : Set ℕ) (i : grid0.Coords)
    (arg2 : Memref sig .tc .vmem S2x512 .f32) (harg2 : arg2.IsWhole) (arg3 : Memref sig .tc .vmem S2048x2 .f32) (harg3 : arg3.IsWhole)
    (arg4 : Memref sig .tc .vmem S1x512 .f32) (harg4 : arg4.IsWhole) (arg5 : Memref sig .tc .vmem S1x512 .f32) (harg5 : arg5.IsWhole)
    (hc0 : isFirst i) (hc1 : ¬isLast i)
    (x0 : Vec F S2x512 .f32) (x1 : Vec F S2048x2 .f32) (xo : Vec F S1x512 .f32)
    (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x1 x0 (k0_pay1 (F := F)))) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (View.cover_of_tiled _ S1x512.size (by rfl)), View.canon_cons_unit_zero origin]
  simp only [View.readAt_eq_ld, harg2.read_unread, harg3.read_unread, View.ld_unit_zero (S := S2048x2) origin,
    View.ld_unit_zero (S := S2x512) origin, View.readCov_unit_zero (S := S1x512) _ origin]

set_option maxHeartbeats 1000000 in
/-- A middle tile: the scratch at `xs` is lowered; the output block is untouched. -/
theorem run_mid (c : Dev nD) (E : Set ℕ) (i : grid0.Coords)
    (arg2 : Memref sig .tc .vmem S2x512 .f32) (harg2 : arg2.IsWhole) (arg3 : Memref sig .tc .vmem S2048x2 .f32) (harg3 : arg3.IsWhole)
    (arg4 : Memref sig .tc .vmem S1x512 .f32) (harg4 : arg4.IsWhole) (arg5 : Memref sig .tc .vmem S1x512 .f32) (harg5 : arg5.IsWhole)
    (hc0 : ¬isFirst i) (hc1 : ¬isLast i)
    (x0 : Vec F S2x512 .f32) (x1 : Vec F S2048x2 .f32) (xo : Vec F S1x512 .f32) (xs : Vec F S1x512 .f32)
    (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x1 x0 xs)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (View.cover_of_tiled _ S1x512.size (by rfl)), View.canon_unit_zero origin]
  simp only [View.readAt_eq_ld, harg2.read_unread, harg3.read_unread, harg5.read_unread, View.ld_unit_zero (S := S2048x2) origin,
    View.ld_unit_zero (S := S2x512) origin, View.ld_unit_zero (S := S1x512) origin]

set_option maxHeartbeats 1000000 in
/-- Last tile of a sweep: the scratch at `xs` is lowered, and the output block, whatever it held, receives the result. -/
theorem run_last (c : Dev nD) (E : Set ℕ) (i : grid0.Coords)
    (arg2 : Memref sig .tc .vmem S2x512 .f32) (harg2 : arg2.IsWhole) (arg3 : Memref sig .tc .vmem S2048x2 .f32) (harg3 : arg3.IsWhole)
    (arg4 : Memref sig .tc .vmem S1x512 .f32) (harg4 : arg4.IsWhole) (arg5 : Memref sig .tc .vmem S1x512 .f32) (harg5 : arg5.IsWhole)
    (hc0 : ¬isFirst i) (hc1 : isLast i)
    (x0 : Vec F S2x512 .f32) (x1 : Vec F S2048x2 .f32) (xs : Vec F S1x512 .f32)
    (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k0_pay2 x1 x0 xs)
            ∗ owns (c : Thread nD τ) arg5 fullShare (k0_pay2 x1 x0 xs)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (View.cover_of_tiled _ S1x512.size (by rfl)), View.canon_unit_zero origin]
    simp only [View.readAt_eq_ld, harg2.read_unread, harg3.read_unread, harg5.read_unread, View.ld_unit_zero (S := S2048x2) origin,
      View.ld_unit_zero (S := S2x512) origin, View.ld_unit_zero (S := S1x512) origin, View.readCov_unit_zero (S := S1x512) _ origin]
  iexists _; isplitr
  swap; · iexact HS
  ipureintro
  sl_unfold_run_names
  rw [View.read_writes_eq_canon _ _ _ (View.cover_of_tiled _ S1x512.size (by rfl)), View.canon_unit_zero origin]
  simp only [View.readAt_eq_ld, harg2.read_unread, harg3.read_unread, harg5.read_unread, View.ld_unit_zero (S := S2048x2) origin,
    View.ld_unit_zero (S := S2x512) origin, View.ld_unit_zero (S := S1x512) origin]

/-! ## The blocks the region reads, at the contents `V` it is entered with -/

section AtEntry

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of points the minima are taken for (two rows: the x and the y coordinates) grid point `t` works on, -/
abbrev lanesBlk (c : Dev nD) (t : Fin cfg0.N) : Vec F S2x512 .f32 := iblk V c 0 t
/-- and its tile of the other set's points (two columns). -/
abbrev tileBlk (c : Dev nD) (t : Fin cfg0.N) : Vec F S2048x2 .f32 := iblk V c 1 t

/-- An input window's staging buffer holds its block at every point, fetched there or not (the first window's block is
    fetched at the first tile of a sweep only and stays), for any proof data over these arrays whose body leaves it in place. -/
theorem before_lanes_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_tile_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The running minimum -/

/-- What the scratch holds after the body at point `n`: this tile's lowering of +∞ at the first tile of a sweep, of what
    the point before left otherwise. -/
def accAt (c : Dev nD) : (n : ℕ) → n < cfg0.N → Vec F S1x512 .f32
  | 0, hn => k0_pay2 (tileBlk V c ⟨0, hn⟩) (lanesBlk V c ⟨0, hn⟩) (k0_pay1 (F := F))
  | n + 1, hn => k0_pay2 (tileBlk V c ⟨n + 1, hn⟩) (lanesBlk V c ⟨n + 1, hn⟩)
      (if (n + 1) % 16 = 0 then k0_pay1 (F := F) else accAt c n (Nat.lt_of_succ_lt hn))

theorem accAt_first (c : Dev nD) (t : Fin cfg0.N) (h : t.val % 16 = 0) :
    accAt V c t.val t.isLt = k0_pay2 (tileBlk V c t) (lanesBlk V c t) (k0_pay1 (F := F)) := by
  obtain ⟨n, hn⟩ := t
  cases n with
  | zero => rfl
  | succ n => exact congrArg (k0_pay2 (tileBlk V c ⟨n + 1, hn⟩) (lanesBlk V c ⟨n + 1, hn⟩)) (if_pos h)

theorem accAt_next (c : Dev nD) (t : Fin cfg0.N) (h : ¬t.val % 16 = 0) :
    accAt V c t.val t.isLt
      = k0_pay2 (tileBlk V c t) (lanesBlk V c t) (accAt V c (t.val - 1) (Nat.lt_of_le_of_lt (Nat.sub_le _ _) t.isLt)) := by
  obtain ⟨n, hn⟩ := t
  cases n with
  | zero => exact absurd (Nat.zero_mod _) h
  | succ n => exact congrArg (k0_pay2 (tileBlk V c ⟨n + 1, hn⟩) (lanesBlk V c ⟨n + 1, hn⟩)) (if_neg h)

/-! ## The region's invariant -/

/-- The invariant before position `n`: at the entry what the region is handed; afterwards the scratch at the running
    minimum the point before left. -/
def Phi (c : Dev nD) : (n : ℕ) → n ≤ cfg0.N → sProp 𝕄
  | 0, _ => Pipeline.ΦA spec0 c
  | n + 1, hn => iprop((owns (c : Thread nD τ) scr fullShare (accAt V c n hn) ∗ others c) ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop((owns (c : Thread nD τ) scr fullShare (accAt V c n hn) ∗ others c) ∗ (∃ r, prngReg c r)) := rfl

theorem Phi_pos (c : Dev nD) (n : ℕ) (h : n ≤ cfg0.N) (hz : n ≠ 0) :
    Phi V c n h = iprop((owns (c : Thread nD τ) scr fullShare (accAt V c (n - 1) (by omega)) ∗ others c) ∗ (∃ r, prngReg c r)) := by
  cases n with
  | zero => exact absurd rfl hz
  | succ n => rfl

/-- Whatever the position, the invariant holds the scratch at SOME contents. -/
theorem Phi_any (c : Dev nD) (n : ℕ) (h : n ≤ cfg0.N) :
    Phi V c n h ⊢ Entry c := by
  cases n with
  | zero => rw [Phi_zero V c 0 h rfl]; exact PhiA_open c
  | succ n =>
    rw [Phi_succ]
    iintro ⟨⟨HS, Ho⟩, Hg⟩
    isplitl [HS Ho]
    · isplitl [HS]
      · iexists _; iexact HS
      iexact Ho
    iexact Hg

/-! ## The proof data -/

/-- The pipeline's proof data on core `c`: the arrays as the region finds them; after the body each input's buffer at
    its block and the output's at the running minimum (read only where the body stores it: at the last tile of a
    sweep); the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem after_lanes (c : Dev nD) (t : Fin cfg0.N) : (dat V c).after 0 t = iblk V c 0 t := by dsimp only [dat]
theorem after_tile (c : Dev nD) (t : Fin cfg0.N) : (dat V c).after 1 t = iblk V c 1 t := by dsimp only [dat]
theorem after_out (c : Dev nD) (t : Fin cfg0.N) : (dat V c).after 2 t = accAt V c t.val t.isLt := by dsimp only [dat]

theorem before_lanes (c : Dev nD) (t : Fin cfg0.N) (d) : (dat V c).before 0 t d = iblk V c 0 t :=
  before_lanes_of V (dat V c) (A_eq V c 0) (after_lanes V c) t d
theorem before_tile (c : Dev nD) (t : Fin cfg0.N) (d) : (dat V c).before 1 t d = iblk V c 1 t :=
  before_tile_of V (dat V c) (A_eq V c 1) (after_tile V c) t d

theorem Phi_castSucc (c : Dev nD) (t : Fin cfg0.N) :
    (dat V c).Φ t.castSucc = Phi V c t.val (Nat.le_of_lt t.isLt) := by
  dsimp only [dat]; simp only [Fin.coe_castSucc]

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point: the inputs' buffers hold their blocks; the point's place in its sweep says which run applies;
    the invariant hands the scratch over at what the point before left (at anything where a sweep begins) and takes it
    back at this point's running minimum; off the last tile the output block goes back as it came. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_lanes, before_tile]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st0_0 t) fullShare ((dat V c).after 0 t) from by
    unfold Dat.leavesExact; rw [live_lanes t], after_lanes]
  rw [show (dat V c).leavesExact 1 t = owns (c : Thread nD τ) (st0_1 t) fullShare ((dat V c).after 1 t) from by
    unfold Dat.leavesExact; rw [live_tile t], after_tile]
  have hN : t.val < 128 := lt_of_lt_of_eq t.isLt (show cfg0.N = 128 from N_0)
  by_cases h0 : t.val % 16 = 0
  · have h1 : ¬t.val % 16 = 15 := by omega
    have hl : ¬isLast (grid0.coords t) := fun h => h1 ((isLast_iff t).mp h)
    rw [Dat.leavesExact_idle (dat V c) 2 t (idle_out t hl) (noFlush_out t hl), accAt_first V c t h0, Phi_castSucc V c t]
    iintro ⟨HΦ, Ho, ⟨%d0, H0⟩, ⟨%d1, H1⟩, ⟨%d2, H2⟩⟩
    ihave HΦ' := (Phi_any V c t.val (Nat.le_of_lt t.isLt)) $$ HΦ
    icases HΦ' with ⟨⟨HS, Hoth⟩, Hg⟩
    iapply (run_first c Set.univ (grid0.coords t) _ _ _ _ _ _ _ _ ((isFirst_iff t).mpr h0) hl (lanesBlk V c t) (tileBlk V c t) _ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hf : ¬isFirst (grid0.coords t) := fun h => h0 ((isFirst_iff t).mp h)
    have hz : t.val ≠ 0 := fun e => h0 (by rw [e])
    rw [accAt_next V c t h0, Phi_castSucc V c t, Phi_pos V c _ _ hz]
    by_cases h1 : t.val % 16 = 15
    · have hl : isLast (grid0.coords t) := (isLast_iff t).mpr h1
      rw [show (dat V c).leavesExact 2 t = owns (c : Thread nD τ) (st0_2 t) fullShare ((dat V c).after 2 t) from by
        unfold Dat.leavesExact; rw [live_out t hl], after_out, accAt_next V c t h0]
      iintro ⟨⟨⟨HS, Hoth⟩, Hg⟩, Ho, ⟨%d0, H0⟩, ⟨%d1, H1⟩, ⟨%d2, H2⟩⟩
      iapply (run_last c Set.univ (grid0.coords t) _ _ _ _ _ _ _ _ hf hl (lanesBlk V c t) (tileBlk V c t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hl : ¬isLast (grid0.coords t) := fun h => h1 ((isLast_iff t).mp h)
      rw [Dat.leavesExact_idle (dat V c) 2 t (idle_out t hl) (noFlush_out t hl)]
      iintro ⟨⟨⟨HS, Hoth⟩, Hg⟩, Ho, ⟨%d0, H0⟩, ⟨%d1, H1⟩, ⟨%d2, H2⟩⟩
      iapply (run_mid c Set.univ (grid0.coords t) _ _ _ _ _ _ _ _ hf hl (lanesBlk V c t) (tileBlk V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant's two ends -/

/-- What the region is entered with is the invariant before the first point. -/
theorem Phi_in (c : Dev nD) : Pipeline.ΦA spec0 c ⊢ (dat V c).Φ 0 := by
  rw [show (dat V c).Φ 0 = Phi V c 0 (Nat.zero_le _) from rfl, Phi_zero V c 0 _ rfl]

/-- After the last point the invariant gives that back, the scratch's contents forgotten. -/
theorem Phi_out (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl]
  exact (Phi_any V c _ _).trans (PhiA_close c)

end AtEntry

end Cert.Kernel.RowMin

end
-- ==== Proof.KColScoped.lean ====
/-
  The scoped buffers of the core that are no staging buffer of the column-minimum kernel: its scratch, which holds the
  running minimum, and the first kernel's staging buffers and scratch, which it never touches.  What the region is
  handed at its entry — each of them at some contents, and the generator register — sorted into the scratch on one side
  and the rest on the other, and back.
-/
import proofs.«106404_j2714419331831_1_alg».proof.Proof.Gen.Kernel.Launch
import Idealize.ShloMosaic.Lib.Pipeline.Frame

noncomputable section

namespace Cert.Kernel.ColMin

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch, as the memref the body is handed. -/
abbrev scr : Memref sig .tc .vmem S1x2048 .f32 := Memref.whole cc1_scratch0

/-- The core's other scoped buffers, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scratch at anything, the other scoped buffers, the generator register. -/
abbrev Entry (c : Dev nD) : sProp 𝕄 :=
  iprop(((∃ d, owns (c : Thread nD τ) scr fullShare d) ∗ others c) ∗ (∃ r, prngReg c r))

/-- What the region is entered with, sorted (the scratch comes last among the scoped buffers). -/
theorem PhiA_open (c : Dev nD) : (Pipeline.ΦA spec1 c : sProp 𝕄) ⊢ Entry c := by
  unfold Pipeline.ΦA Entry others; rw [scopedRest1_eq]; simp only [scr, owns_whole]
  iintro ⟨⟨Ha, Hb, Hc, Hd, He, Hf, Hh, Hs⟩, Hg⟩
  isplitl [Hs Ha Hb Hc Hd He Hf Hh]
  · isplitl [Hs]; · iexact Hs
    isplitl [Ha]; · iexact Ha
    isplitl [Hb]; · iexact Hb
    isplitl [Hc]; · iexact Hc
    isplitl [Hd]; · iexact Hd
    isplitl [He]; · iexact He
    isplitl [Hf]; · iexact Hf
    iexact Hh
  iexact Hg

/-- And put back. -/
theorem PhiA_close (c : Dev nD) : Entry c ⊢ (Pipeline.ΦA spec1 c : sProp 𝕄) := by
  unfold Pipeline.ΦA Entry others; rw [scopedRest1_eq]; simp only [scr, owns_whole]
  iintro ⟨⟨Hs, Ha, Hb, Hc, Hd, He, Hf, Hh⟩, Hg⟩
  isplitl [Hs Ha Hb Hc Hd He Hf Hh]
  · isplitl [Ha]; · iexact Ha
    isplitl [Hb]; · iexact Hb
    isplitl [Hc]; · iexact Hc
    isplitl [Hd]; · iexact Hd
    isplitl [He]; · iexact He
    isplitl [Hf]; · iexact Hf
    isplitl [Hh]; · iexact Hh
    iexact Hs
  iexact Hg

end Cert.Kernel.ColMin

end
-- ==== Proof.KColMin.lean ====
/-
  The column-minimum kernel, one grid point at a time.  The grid is 16 blocks of 2048 polyline points by 8 tiles of 512
  points, the tile index moving fastest: a grid point's position in its sweep is its index modulo 8.  The body keeps a
  running minimum, one entry per point of the block, in a scratch buffer: at the first tile of a sweep it resets the
  scratch to +∞; at every tile it lowers the scratch to the minimum of what it holds and this tile's column minima;
  at the last tile it copies the scratch into the output block, which the pipeline then writes back.
-/
import proofs.«106404_j2714419331831_1_alg».proof.Proof.Gen.Kernel.Launch
import proofs.«106404_j2714419331831_1_alg».proof.Proof.Gen.Kernel.Skeleton
import proofs.«106404_j2714419331831_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
import proofs.«106404_j2714419331831_1_alg».proof.Proof.KColScoped

set_option maxRecDepth 16384

noncomputable section

namespace Cert.Kernel.ColMin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stands in its sweep -/

/-- The body's first branch: the tile index is 0. -/
abbrev isFirst (i : grid1.Coords) : Prop :=
  (Scalar.cmpi .ne (Scalar.extui (Scalar.cmpi .eq (BitVec.ofNat 32 (i 1).val) 0#32)) 0#32) = 1#1
/-- The body's second branch: the tile index is the last. -/
abbrev isLast (i : grid1.Coords) : Prop := k1_cond2 i = 1#1

theorem isFirst_iff : ∀ t : Fin cfg1.N, isFirst (grid1.coords t) ↔ t.val % 8 = 0 :=
  (by decide +kernel : ∀ t : Fin grid1.N, isFirst (grid1.coords t) ↔ t.val % 8 = 0)
theorem isLast_iff : ∀ t : Fin cfg1.N, isLast (grid1.coords t) ↔ t.val % 8 = 7 :=
  (by decide +kernel : ∀ t : Fin grid1.N, isLast (grid1.coords t) ↔ t.val % 8 = 7)

/-- The two input windows are live at every point. -/
theorem live_lanes : ∀ t : Fin cfg1.N, cfg1.idle 0 (grid1.coords t) = false := by decide +kernel
theorem live_tile : ∀ t : Fin cfg1.N, cfg1.idle 1 (grid1.coords t) = false := by decide +kernel
/-- Off the last tile the output window is idle and is not written back; -/
theorem idle_out : ∀ t : Fin cfg1.N, ¬isLast (grid1.coords t) → cfg1.idle 2 (grid1.coords t) = true := by decide +kernel
theorem noFlush_out : ∀ t : Fin cfg1.N, ¬isLast (grid1.coords t) → (cfg1.win 2).flush t = false := by decide +kernel
/-- on the last tile it is live. -/
theorem live_out : ∀ t : Fin cfg1.N, isLast (grid1.coords t) → cfg1.idle 2 (grid1.coords t) = false := by decide +kernel

/-- Every access of the body starts at the origin of its buffer. -/
theorem origin : (![0, 0] : Fin 2 → Nat) = fun _ => 0 := funext fun a => by fin_cases a <;> rfl

/-! ## The body's run, by the point's place in its sweep

On whole memrefs — the two input blocks at contents `x0` (the block the minima are taken for, coordinates by rows) and `x1`
(the tile of the other set, coordinates by columns), the output block and the scratch as stated — the body runs to its end,
leaving the inputs as they were and the scratch lowered by this tile's minima. -/

set_option maxHeartbeats 1000000 in
/-- First tile of a sweep: the scratch, whatever it held, is reset and then lowered; the output block is untouched. -/
theorem run_first (c : Dev nD) (E : Set ℕ) (i : grid1.Coords)
    (arg2 : Memref sig .tc .vmem S2x2048 .f32) (harg2 : arg2.IsWhole) (arg3 : Memref sig .tc .vmem S512x2 .f32) (harg3 : arg3.IsWhole)
    (arg4 : Memref sig .tc .vmem S1x2048 .f32) (harg4 : arg4.IsWhole) (arg5 : Memref sig .tc .vmem S1x2048 .f32) (harg5 : arg5.IsWhole)
    (hc0 : isFirst i) (hc1 : ¬isLast i)
    (x0 : Vec F S2x2048 .f32) (x1 : Vec F S512x2 .f32) (xo : Vec F S1x2048 .f32)
    (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
            ∗ owns (c : Thread nD τ) arg5 fullShare (k1_pay2 x1 x0 (k1_pay1 (F := F)))) -∗ K ⟨⟩))
      ⊢ wp frame (wpE (defs₀ (F := F)) Variants.none c none) E (cc1__col_min_kernel i arg2 harg2 arg3 harg3 arg4 harg4 arg5 harg5) K := by
  simp only [cc1__col_min_kernel_eq_skeleton]; unfold cc1__col_min_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (View.cover_of_tiled _ S1x2048.size (by rfl)), View.canon_cons_unit_zero origin]
  simp only [View.readAt_eq_ld, harg2.read_unread, harg3.read_unread, View.ld_unit_zero (S := S512x2) origin,
    View.ld_unit_zero (S := S2x2048) origin, View.readCov_unit_zero (S := S1x2048) _ origin]

set_option maxHeartbeats 1000000 in
/-- A middle tile: the scratch at `xs` is lowered; the output block is untouched. -/
theorem run_mid (c : Dev nD) (E : Set ℕ) (i : grid1.Coords)
    (arg2 : Memref sig .tc .vmem S2x2048 .f32) (harg2 : arg2.IsWhole) (arg3 : Memref sig .tc .vmem S512x2 .f32) (harg3 : arg3.IsWhole)
    (arg4 : Memref sig .tc .vmem S1x2048 .f32) (harg4 : arg4.IsWhole) (arg5 : Memref sig .tc .vmem S1x2048 .f32) (harg5 : arg5.IsWhole)
    (hc0 : ¬isFirst i) (hc1 : ¬isLast i)
    (x0 : Vec F S2x2048 .f32) (x1 : Vec F S512x2 .f32) (xo : Vec F S1x2048 .f32) (xs : Vec F S1x2048 .f32)
    (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k1_pay2 x1 x0 xs)) -∗ K ⟨⟩))
      ⊢ wp frame (wpE (defs₀ (F := F)) Variants.none c none) E (cc1__col_min_kernel i arg2 harg2 arg3 harg3 arg4 harg4 arg5 harg5) K := by
  simp only [cc1__col_min_kernel_eq_skeleton]; unfold cc1__col_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (View.cover_of_tiled _ S1x2048.size (by rfl)), View.canon_unit_zero origin]
  simp only [View.readAt_eq_ld, harg2.read_unread, harg3.read_unread, harg5.read_unread, View.ld_unit_zero (S := S512x2) origin,
    View.ld_unit_zero (S := S2x2048) origin, View.ld_unit_zero (S := S1x2048) origin]

set_option maxHeartbeats 1000000 in
/-- Last tile of a sweep: the scratch at `xs` is lowered, and the output block, whatever it held, receives the result. -/
theorem run_last (c : Dev nD) (E : Set ℕ) (i : grid1.Coords)
    (arg2 : Memref sig .tc .vmem S2x2048 .f32) (harg2 : arg2.IsWhole) (arg3 : Memref sig .tc .vmem S512x2 .f32) (harg3 : arg3.IsWhole)
    (arg4 : Memref sig .tc .vmem S1x2048 .f32) (harg4 : arg4.IsWhole) (arg5 : Memref sig .tc .vmem S1x2048 .f32) (harg5 : arg5.IsWhole)
    (hc0 : ¬isFirst i) (hc1 : isLast i)
    (x0 : Vec F S2x2048 .f32) (x1 : Vec F S512x2 .f32) (xs : Vec F S1x2048 .f32)
    (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k1_pay2 x1 x0 xs)
            ∗ owns (c : Thread nD τ) arg5 fullShare (k1_pay2 x1 x0 xs)) -∗ K ⟨⟩))
      ⊢ wp frame (wpE (defs₀ (F := F)) Variants.none c none) E (cc1__col_min_kernel i arg2 harg2 arg3 harg3 arg4 harg4 arg5 harg5) K := by
  simp only [cc1__col_min_kernel_eq_skeleton]; unfold cc1__col_min_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (View.cover_of_tiled _ S1x2048.size (by rfl)), View.canon_unit_zero origin]
    simp only [View.readAt_eq_ld, harg2.read_unread, harg3.read_unread, harg5.read_unread, View.ld_unit_zero (S := S512x2) origin,
      View.ld_unit_zero (S := S2x2048) origin, View.ld_unit_zero (S := S1x2048) origin, View.readCov_unit_zero (S := S1x2048) _ origin]
  iexists _; isplitr
  swap; · iexact HS
  ipureintro
  sl_unfold_run_names
  rw [View.read_writes_eq_canon _ _ _ (View.cover_of_tiled _ S1x2048.size (by rfl)), View.canon_unit_zero origin]
  simp only [View.readAt_eq_ld, harg2.read_unread, harg3.read_unread, harg5.read_unread, View.ld_unit_zero (S := S512x2) origin,
    View.ld_unit_zero (S := S2x2048) origin, View.ld_unit_zero (S := S1x2048) origin]

/-! ## The blocks the region reads, at the contents `V` it is entered with -/

section AtEntry

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of points the minima are taken for (two rows: the x and the y coordinates) grid point `t` works on, -/
abbrev lanesBlk (c : Dev nD) (t : Fin cfg1.N) : Vec F S2x2048 .f32 := iblk V c 0 t
/-- and its tile of the other set's points (two columns). -/
abbrev tileBlk (c : Dev nD) (t : Fin cfg1.N) : Vec F S512x2 .f32 := iblk V c 1 t

/-- An input window's staging buffer holds its block at every point, fetched there or not (the first window's block is
    fetched at the first tile of a sweep only and stays), for any proof data over these arrays whose body leaves it in place. -/
theorem before_lanes_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_tile_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The running minimum -/

/-- What the scratch holds after the body at point `n`: this tile's lowering of +∞ at the first tile of a sweep, of what
    the point before left otherwise. -/
def accAt (c : Dev nD) : (n : ℕ) → n < cfg1.N → Vec F S1x2048 .f32
  | 0, hn => k1_pay2 (tileBlk V c ⟨0, hn⟩) (lanesBlk V c ⟨0, hn⟩) (k1_pay1 (F := F))
  | n + 1, hn => k1_pay2 (tileBlk V c ⟨n + 1, hn⟩) (lanesBlk V c ⟨n + 1, hn⟩)
      (if (n + 1) % 8 = 0 then k1_pay1 (F := F) else accAt c n (Nat.lt_of_succ_lt hn))

theorem accAt_first (c : Dev nD) (t : Fin cfg1.N) (h : t.val % 8 = 0) :
    accAt V c t.val t.isLt = k1_pay2 (tileBlk V c t) (lanesBlk V c t) (k1_pay1 (F := F)) := by
  obtain ⟨n, hn⟩ := t
  cases n with
  | zero => rfl
  | succ n => exact congrArg (k1_pay2 (tileBlk V c ⟨n + 1, hn⟩) (lanesBlk V c ⟨n + 1, hn⟩)) (if_pos h)

theorem accAt_next (c : Dev nD) (t : Fin cfg1.N) (h : ¬t.val % 8 = 0) :
    accAt V c t.val t.isLt
      = k1_pay2 (tileBlk V c t) (lanesBlk V c t) (accAt V c (t.val - 1) (Nat.lt_of_le_of_lt (Nat.sub_le _ _) t.isLt)) := by
  obtain ⟨n, hn⟩ := t
  cases n with
  | zero => exact absurd (Nat.zero_mod _) h
  | succ n => exact congrArg (k1_pay2 (tileBlk V c ⟨n + 1, hn⟩) (lanesBlk V c ⟨n + 1, hn⟩)) (if_neg h)

/-! ## The region's invariant -/

/-- The invariant before position `n`: at the entry what the region is handed; afterwards the scratch at the running
    minimum the point before left. -/
def Phi (c : Dev nD) : (n : ℕ) → n ≤ cfg1.N → sProp 𝕄
  | 0, _ => Pipeline.ΦA spec1 c
  | n + 1, hn => iprop((owns (c : Thread nD τ) scr fullShare (accAt V c n hn) ∗ others c) ∗ (∃ r, prngReg c r))

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop((owns (c : Thread nD τ) scr fullShare (accAt V c n hn) ∗ others c) ∗ (∃ r, prngReg c r)) := rfl

theorem Phi_pos (c : Dev nD) (n : ℕ) (h : n ≤ cfg1.N) (hz : n ≠ 0) :
    Phi V c n h = iprop((owns (c : Thread nD τ) scr fullShare (accAt V c (n - 1) (by omega)) ∗ others c) ∗ (∃ r, prngReg c r)) := by
  cases n with
  | zero => exact absurd rfl hz
  | succ n => rfl

/-- Whatever the position, the invariant holds the scratch at SOME contents. -/
theorem Phi_any (c : Dev nD) (n : ℕ) (h : n ≤ cfg1.N) :
    Phi V c n h ⊢ Entry c := by
  cases n with
  | zero => rw [Phi_zero V c 0 h rfl]; exact PhiA_open c
  | succ n =>
    rw [Phi_succ]
    iintro ⟨⟨HS, Ho⟩, Hg⟩
    isplitl [HS Ho]
    · isplitl [HS]
      · iexists _; iexact HS
      iexact Ho
    iexact Hg

/-! ## The proof data -/

/-- The pipeline's proof data on core `c`: the arrays as the region finds them; after the body each input's buffer at
    its block and the output's at the running minimum (read only where the body stores it: at the last tile of a
    sweep); the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => accAt V c t.val t.isLt
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_lanes (c : Dev nD) (t : Fin cfg1.N) : (dat V c).after 0 t = iblk V c 0 t := by dsimp only [dat]
theorem after_tile (c : Dev nD) (t : Fin cfg1.N) : (dat V c).after 1 t = iblk V c 1 t := by dsimp only [dat]
theorem after_out (c : Dev nD) (t : Fin cfg1.N) : (dat V c).after 2 t = accAt V c t.val t.isLt := by dsimp only [dat]

theorem before_lanes (c : Dev nD) (t : Fin cfg1.N) (d) : (dat V c).before 0 t d = iblk V c 0 t :=
  before_lanes_of V (dat V c) (A_eq V c 0) (after_lanes V c) t d
theorem before_tile (c : Dev nD) (t : Fin cfg1.N) (d) : (dat V c).before 1 t d = iblk V c 1 t :=
  before_tile_of V (dat V c) (A_eq V c 1) (after_tile V c) t d

theorem Phi_castSucc (c : Dev nD) (t : Fin cfg1.N) :
    (dat V c).Φ t.castSucc = Phi V c t.val (Nat.le_of_lt t.isLt) := by
  dsimp only [dat]; simp only [Fin.coe_castSucc]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point: the inputs' buffers hold their blocks; the point's place in its sweep says which run applies;
    the invariant hands the scratch over at what the point before left (at anything where a sweep begins) and takes it
    back at this point's running minimum; off the last tile the output block goes back as it came. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_lanes, before_tile]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st1_0 t) fullShare ((dat V c).after 0 t) from by
    unfold Dat.leavesExact; rw [live_lanes t], after_lanes]
  rw [show (dat V c).leavesExact 1 t = owns (c : Thread nD τ) (st1_1 t) fullShare ((dat V c).after 1 t) from by
    unfold Dat.leavesExact; rw [live_tile t], after_tile]
  have hN : t.val < 128 := lt_of_lt_of_eq t.isLt (show cfg1.N = 128 from N_1)
  by_cases h0 : t.val % 8 = 0
  · have h1 : ¬t.val % 8 = 7 := by omega
    have hl : ¬isLast (grid1.coords t) := fun h => h1 ((isLast_iff t).mp h)
    rw [Dat.leavesExact_idle (dat V c) 2 t (idle_out t hl) (noFlush_out t hl), accAt_first V c t h0, Phi_castSucc V c t]
    iintro ⟨HΦ, Ho, ⟨%d0, H0⟩, ⟨%d1, H1⟩, ⟨%d2, H2⟩⟩
    ihave HΦ' := (Phi_any V c t.val (Nat.le_of_lt t.isLt)) $$ HΦ
    icases HΦ' with ⟨⟨HS, Hoth⟩, Hg⟩
    iapply (run_first c Set.univ (grid1.coords t) _ _ _ _ _ _ _ _ ((isFirst_iff t).mpr h0) hl (lanesBlk V c t) (tileBlk V c t) _ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hf : ¬isFirst (grid1.coords t) := fun h => h0 ((isFirst_iff t).mp h)
    have hz : t.val ≠ 0 := fun e => h0 (by rw [e])
    rw [accAt_next V c t h0, Phi_castSucc V c t, Phi_pos V c _ _ hz]
    by_cases h1 : t.val % 8 = 7
    · have hl : isLast (grid1.coords t) := (isLast_iff t).mpr h1
      rw [show (dat V c).leavesExact 2 t = owns (c : Thread nD τ) (st1_2 t) fullShare ((dat V c).after 2 t) from by
        unfold Dat.leavesExact; rw [live_out t hl], after_out, accAt_next V c t h0]
      iintro ⟨⟨⟨HS, Hoth⟩, Hg⟩, Ho, ⟨%d0, H0⟩, ⟨%d1, H1⟩, ⟨%d2, H2⟩⟩
      iapply (run_last c Set.univ (grid1.coords t) _ _ _ _ _ _ _ _ hf hl (lanesBlk V c t) (tileBlk V c t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hl : ¬isLast (grid1.coords t) := fun h => h1 ((isLast_iff t).mp h)
      rw [Dat.leavesExact_idle (dat V c) 2 t (idle_out t hl) (noFlush_out t hl)]
      iintro ⟨⟨⟨HS, Hoth⟩, Hg⟩, Ho, ⟨%d0, H0⟩, ⟨%d1, H1⟩, ⟨%d2, H2⟩⟩
      iapply (run_mid c Set.univ (grid1.coords t) _ _ _ _ _ _ _ _ hf hl (lanesBlk V c t) (tileBlk V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant's two ends -/

/-- What the region is entered with is the invariant before the first point. -/
theorem Phi_in (c : Dev nD) : Pipeline.ΦA spec1 c ⊢ (dat V c).Φ 0 := by
  rw [show (dat V c).Φ 0 = Phi V c 0 (Nat.zero_le _) from rfl, Phi_zero V c 0 _ rfl]

/-- After the last point the invariant gives that back, the scratch's contents forgotten. -/
theorem Phi_out (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl]
  exact (Phi_any V c _ _).trans (PhiA_close c)

end AtEntry

end Cert.Kernel.ColMin

end
-- ==== Proof.KWhole.lean ====
/-
  The whole program as a run: host operations, the row-minimum region, the column-minimum region, host operations.
  Between two of these the core holds every unscoped buffer at contents that are a fold from the launch memory: after a
  stretch of host operations, what those operations compute; after a region, its arrays at what its write-backs leave
  and every other buffer as it was.  Each region is entered from these contents and left at the next; the generator
  register and the scoped buffers ride along; nothing is ever owed.  The run ends with every unscoped buffer at the last
  contents, from which both the arguments (unchanged through the fold) and the result are read.
-/
import proofs.«106404_j2714419331831_1_alg».proof.Proof.KRowMin
import proofs.«106404_j2714419331831_1_alg».proof.Proof.KColMin
import proofs.«106404_j2714419331831_1_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first stretch of host operations (the first region's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (RowMin.dat (E1 m) c).arrAt w cfg0.N
theorem W2_arr (c : Dev nD) (w : Fin cfg0.W) :
    W2 m c (Proc.devRef .tc (Pipeline.arrRef spec0 w)) = (RowMin.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (RowMin.dat (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (ColMin.dat (E2 m) c).arrAt w cfg1.N
theorem W3_arr (c : Dev nD) (w : Fin cfg1.W) :
    W3 m c (Proc.devRef .tc (Pipeline.arrRef spec1 w)) = (ColMin.dat (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (ColMin.dat (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After the last stretch of host operations: the end. -/
abbrev W4 : Dev nD → Valuation τ sig (Elt F) := fun c => StableHlo.after hostOps2 (W3 m c)

/-! ## The proof data family and the thread state -/

/-- Both pipelines' proof data, each at its region's entry contents — a literal match on the pipeline. -/
def pdats : (p : Fin 2) → (c : Dev nD) → Dat τ (Elt F) Unit ℕ (UR sig nD τ) ℕ (Pipeline.pin (pcfgs (F := F)) adm p) c
  | ⟨0, _⟩ => fun c => RowMin.dat (E1 m) c
  | ⟨1, _⟩ => fun c => ColMin.dat (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. Its arrays are split
    out of the unscoped buffers and put back at what the pipeline leaves; the generator register and the scoped rest go
    into the invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (RowMin.body_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (RowMin.dat (E1 m) c).Φ 0 from rfl]
    refine (show _ ⊢ (Pipeline.ΦA spec0 c : sProp 𝕄) from ?_).trans (RowMin.Phi_in (E1 m) c)
    unfold Pipeline.ΦA
    iintro ⟨Hp, -, Hr⟩
    isplitl [Hr]; · iexact Hr
    iexact Hp
  hout c := by
    rw [Pipeline.ownSems0_none, show (pdats m 0 c).Φ (Fin.last _) = (RowMin.dat (E1 m) c).Φ (Fin.last cfg0.N) from rfl]
    refine (RowMin.Phi_out (E1 m) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at what the pipeline leaves; the generator register and the scoped rest go
    into the invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (ColMin.body_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (ColMin.dat (E2 m) c).Φ 0 from rfl]
    refine (show _ ⊢ (Pipeline.ΦA spec1 c : sProp 𝕄) from ?_).trans (ColMin.Phi_in (E2 m) c)
    unfold Pipeline.ΦA
    iintro ⟨Hp, -, Hr⟩
    isplitl [Hr]; · iexact Hr
    iexact Hp
  hout c := by
    rw [Pipeline.ownSems0_none, show (pdats m 1 c).Φ (Fin.last _) = (ColMin.dat (E2 m) c).Φ (Fin.last cfg1.N) from rfl]
    refine (ColMin.Phi_out (E2 m) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

/-- The program's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

/-- The program IS the run of the segments. -/
theorem main_run (c : Dev nD) : main (F := F) c = Pipeline.Seg.run (segs m) := (main_chain c).trans (by chain_rfl)

set_option backward.isDefEq.respectTransparency.types false in
/-- THE RUN. From any memory with zero counters, every weakly fair execution of the program on the TensorCores terminates,
    nothing faulting, and every final memory holds each unscoped buffer at the last contents of the fold. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The arguments end as launched -/

/-- No host operation and no region writes the first argument: the fold at its buffer walks back to the launch memory. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

/-- The same for the second argument. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

/-- THE FRAME: the program runs to its end, nothing faulting, and its argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run_all m ρ)

end Cert.Kernel.Whole

end
-- ==== Proof.RowScoped.lean ====
/-
  The scoped buffers of the core that are no staging buffer of the row-minimum kernel: its scratch, which holds the
  running minimum, and the second kernel's staging buffers and scratch, which it never touches.  What the region is
  handed at its entry — each of them at some contents, and the generator register — sorted into the scratch on one side
  and the rest on the other, and back.
-/
import proofs.«106404_j2714419331831_1_alg».proof.Proof.Gen.KernelIdeal.Launch
import Idealize.ShloMosaic.Lib.Pipeline.Frame

noncomputable section

namespace Cert.KernelIdeal.RowMin

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch, as the memref the body is handed. -/
abbrev scr : Memref sig .tc .vmem S1x512 .f32 := Memref.whole cc0_scratch0

/-- The core's other scoped buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scratch at anything, the other scoped buffers, the generator register. -/
abbrev Entry (c : Dev nD) : sProp 𝕄 :=
  iprop(((∃ d, owns (c : Thread nD τ) scr fullShare d) ∗ others c) ∗ (∃ r, prngReg c r))

/-- What the region is entered with, sorted. -/
theorem PhiA_open (c : Dev nD) : (Pipeline.ΦA spec0 c : sProp 𝕄) ⊢ Entry c := by
  unfold Pipeline.ΦA Entry others; rw [scopedRest0_eq]; simp only [scr, owns_whole]
  iintro ⟨⟨Hs, Ha, Hb, Hc, Hd, He, Hf, Hh⟩, Hg⟩
  isplitl [Hs Ha Hb Hc Hd He Hf Hh]
  · isplitl [Hs]; · iexact Hs
    isplitl [Ha]; · iexact Ha
    isplitl [Hb]; · iexact Hb
    isplitl [Hc]; · iexact Hc
    isplitl [Hd]; · iexact Hd
    isplitl [He]; · iexact He
    isplitl [Hf]; · iexact Hf
    iexact Hh
  iexact Hg

/-- And put back. -/
theorem PhiA_close (c : Dev nD) : Entry c ⊢ (Pipeline.ΦA spec0 c : sProp 𝕄) := by
  unfold Pipeline.ΦA Entry others; rw [scopedRest0_eq]; simp only [scr, owns_whole]
  iintro ⟨⟨Hs, Ha, Hb, Hc, Hd, He, Hf, Hh⟩, Hg⟩
  isplitl [Hs Ha Hb Hc Hd He Hf Hh]
  · isplitl [Hs]; · iexact Hs
    isplitl [Ha]; · iexact Ha
    isplitl [Hb]; · iexact Hb
    isplitl [Hc]; · iexact Hc
    isplitl [Hd]; · iexact Hd
    isplitl [He]; · iexact He
    isplitl [Hf]; · iexact Hf
    iexact Hh
  iexact Hg

end Cert.KernelIdeal.RowMin

end
-- ==== Proof.RowMin.lean ====
/-
  The row-minimum kernel, one grid point at a time.  The grid is 8 blocks of 512 points by 16 tiles of 2048 polyline
  points, the tile index moving fastest: a grid point's position in its sweep is its index modulo 16.  The body keeps a
  running minimum, one entry per point of the block, in a scratch buffer: at the first tile of a sweep it resets the
  scratch to +∞; at every tile it lowers the scratch to the minimum of what it holds and this tile's column minima;
  at the last tile it copies the scratch into the output block, which the pipeline then writes back.
-/
import proofs.«106404_j2714419331831_1_alg».proof.Proof.Gen.KernelIdeal.Launch
import proofs.«106404_j2714419331831_1_alg».proof.Proof.Gen.KernelIdeal.Skeleton
import proofs.«106404_j2714419331831_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
import proofs.«106404_j2714419331831_1_alg».proof.Proof.RowScoped

set_option maxRecDepth 16384

noncomputable section

namespace Cert.KernelIdeal.RowMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stands in its sweep -/

/-- The body's first branch: the tile index is 0. -/
abbrev isFirst (i : grid0.Coords) : Prop :=
  (Scalar.cmpi .ne (Scalar.extui (Scalar.cmpi .eq (BitVec.ofNat 32 (i 1).val) 0#32)) 0#32) = 1#1
/-- The body's second branch: the tile index is the last. -/
abbrev isLast (i : grid0.Coords) : Prop := k0_cond2 i = 1#1

theorem isFirst_iff : ∀ t : Fin cfg0.N, isFirst (grid0.coords t) ↔ t.val % 16 = 0 :=
  (by decide +kernel : ∀ t : Fin grid0.N, isFirst (grid0.coords t) ↔ t.val % 16 = 0)
theorem isLast_iff : ∀ t : Fin cfg0.N, isLast (grid0.coords t) ↔ t.val % 16 = 15 :=
  (by decide +kernel : ∀ t : Fin grid0.N, isLast (grid0.coords t) ↔ t.val % 16 = 15)

/-- The two input windows are live at every point. -/
theorem live_lanes : ∀ t : Fin cfg0.N, cfg0.idle 0 (grid0.coords t) = false := by decide +kernel
theorem live_tile : ∀ t : Fin cfg0.N, cfg0.idle 1 (grid0.coords t) = false := by decide +kernel
/-- Off the last tile the output window is idle and is not written back; -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- on the last tile it is live. -/
theorem live_out : ∀ t : Fin cfg0.N, isLast (grid0.coords t) → cfg0.idle 2 (grid0.coords t) = false := by decide +kernel

/-- Every access of the body starts at the origin of its buffer. -/
theorem origin : (![0, 0] : Fin 2 → Nat) = fun _ => 0 := funext fun a => by fin_cases a <;> rfl

/-! ## The body's run, by the point's place in its sweep

On whole memrefs — the two input blocks at contents `x0` (the block the minima are taken for, coordinates by rows) and `x1`
(the tile of the other set, coordinates by columns), the output block and the scratch as stated — the body runs to its end,
leaving the inputs as they were and the scratch lowered by this tile's minima. -/

set_option maxHeartbeats 1000000 in
/-- First tile of a sweep: the scratch, whatever it held, is reset and then lowered; the output block is untouched. -/
theorem run_first (c : Dev nD) (E : Set ℕ) (i : grid0.Coords)
    (arg2 : Memref sig .tc .vmem S2x512 .f32) (harg2 : arg2.IsWhole) (arg3 : Memref sig .tc .vmem S2048x2 .f32) (harg3 : arg3.IsWhole)
    (arg4 : Memref sig .tc .vmem S1x512 .f32) (harg4 : arg4.IsWhole) (arg5 : Memref sig .tc .vmem S1x512 .f32) (harg5 : arg5.IsWhole)
    (hc0 : isFirst i) (hc1 : ¬isLast i)
    (x0 : Vec F S2x512 .f32) (x1 : Vec F S2048x2 .f32) (xo : Vec F S1x512 .f32)
    (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x1 x0 (k0_pay1 (F := F)))) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (View.cover_of_tiled _ S1x512.size (by rfl)), View.canon_cons_unit_zero origin]
  simp only [View.readAt_eq_ld, harg2.read_unread, harg3.read_unread, View.ld_unit_zero (S := S2048x2) origin,
    View.ld_unit_zero (S := S2x512) origin, View.readCov_unit_zero (S := S1x512) _ origin]

set_option maxHeartbeats 1000000 in
/-- A middle tile: the scratch at `xs` is lowered; the output block is untouched. -/
theorem run_mid (c : Dev nD) (E : Set ℕ) (i : grid0.Coords)
    (arg2 : Memref sig .tc .vmem S2x512 .f32) (harg2 : arg2.IsWhole) (arg3 : Memref sig .tc .vmem S2048x2 .f32) (harg3 : arg3.IsWhole)
    (arg4 : Memref sig .tc .vmem S1x512 .f32) (harg4 : arg4.IsWhole) (arg5 : Memref sig .tc .vmem S1x512 .f32) (harg5 : arg5.IsWhole)
    (hc0 : ¬isFirst i) (hc1 : ¬isLast i)
    (x0 : Vec F S2x512 .f32) (x1 : Vec F S2048x2 .f32) (xo : Vec F S1x512 .f32) (xs : Vec F S1x512 .f32)
    (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k0_pay2 x1 x0 xs)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (View.cover_of_tiled _ S1x512.size (by rfl)), View.canon_unit_zero origin]
  simp only [View.readAt_eq_ld, harg2.read_unread, harg3.read_unread, harg5.read_unread, View.ld_unit_zero (S := S2048x2) origin,
    View.ld_unit_zero (S := S2x512) origin, View.ld_unit_zero (S := S1x512) origin]

set_option maxHeartbeats 1000000 in
/-- Last tile of a sweep: the scratch at `xs` is lowered, and the output block, whatever it held, receives the result. -/
theorem run_last (c : Dev nD) (E : Set ℕ) (i : grid0.Coords)
    (arg2 : Memref sig .tc .vmem S2x512 .f32) (harg2 : arg2.IsWhole) (arg3 : Memref sig .tc .vmem S2048x2 .f32) (harg3 : arg3.IsWhole)
    (arg4 : Memref sig .tc .vmem S1x512 .f32) (harg4 : arg4.IsWhole) (arg5 : Memref sig .tc .vmem S1x512 .f32) (harg5 : arg5.IsWhole)
    (hc0 : ¬isFirst i) (hc1 : isLast i)
    (x0 : Vec F S2x512 .f32) (x1 : Vec F S2048x2 .f32) (xs : Vec F S1x512 .f32)
    (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k0_pay2 x1 x0 xs)
            ∗ owns (c : Thread nD τ) arg5 fullShare (k0_pay2 x1 x0 xs)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (View.cover_of_tiled _ S1x512.size (by rfl)), View.canon_unit_zero origin]
    simp only [View.readAt_eq_ld, harg2.read_unread, harg3.read_unread, harg5.read_unread, View.ld_unit_zero (S := S2048x2) origin,
      View.ld_unit_zero (S := S2x512) origin, View.ld_unit_zero (S := S1x512) origin, View.readCov_unit_zero (S := S1x512) _ origin]
  iexists _; isplitr
  swap; · iexact HS
  ipureintro
  sl_unfold_run_names
  rw [View.read_writes_eq_canon _ _ _ (View.cover_of_tiled _ S1x512.size (by rfl)), View.canon_unit_zero origin]
  simp only [View.readAt_eq_ld, harg2.read_unread, harg3.read_unread, harg5.read_unread, View.ld_unit_zero (S := S2048x2) origin,
    View.ld_unit_zero (S := S2x512) origin, View.ld_unit_zero (S := S1x512) origin]

/-! ## The blocks the region reads, at the contents `V` it is entered with -/

section AtEntry

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of points the minima are taken for (two rows: the x and the y coordinates) grid point `t` works on, -/
abbrev lanesBlk (c : Dev nD) (t : Fin cfg0.N) : Vec F S2x512 .f32 := iblk V c 0 t
/-- and its tile of the other set's points (two columns). -/
abbrev tileBlk (c : Dev nD) (t : Fin cfg0.N) : Vec F S2048x2 .f32 := iblk V c 1 t

/-- An input window's staging buffer holds its block at every point, fetched there or not (the first window's block is
    fetched at the first tile of a sweep only and stays), for any proof data over these arrays whose body leaves it in place. -/
theorem before_lanes_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_tile_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The running minimum -/

/-- What the scratch holds after the body at point `n`: this tile's lowering of +∞ at the first tile of a sweep, of what
    the point before left otherwise. -/
def accAt (c : Dev nD) : (n : ℕ) → n < cfg0.N → Vec F S1x512 .f32
  | 0, hn => k0_pay2 (tileBlk V c ⟨0, hn⟩) (lanesBlk V c ⟨0, hn⟩) (k0_pay1 (F := F))
  | n + 1, hn => k0_pay2 (tileBlk V c ⟨n + 1, hn⟩) (lanesBlk V c ⟨n + 1, hn⟩)
      (if (n + 1) % 16 = 0 then k0_pay1 (F := F) else accAt c n (Nat.lt_of_succ_lt hn))

theorem accAt_first (c : Dev nD) (t : Fin cfg0.N) (h : t.val % 16 = 0) :
    accAt V c t.val t.isLt = k0_pay2 (tileBlk V c t) (lanesBlk V c t) (k0_pay1 (F := F)) := by
  obtain ⟨n, hn⟩ := t
  cases n with
  | zero => rfl
  | succ n => exact congrArg (k0_pay2 (tileBlk V c ⟨n + 1, hn⟩) (lanesBlk V c ⟨n + 1, hn⟩)) (if_pos h)

theorem accAt_next (c : Dev nD) (t : Fin cfg0.N) (h : ¬t.val % 16 = 0) :
    accAt V c t.val t.isLt
      = k0_pay2 (tileBlk V c t) (lanesBlk V c t) (accAt V c (t.val - 1) (Nat.lt_of_le_of_lt (Nat.sub_le _ _) t.isLt)) := by
  obtain ⟨n, hn⟩ := t
  cases n with
  | zero => exact absurd (Nat.zero_mod _) h
  | succ n => exact congrArg (k0_pay2 (tileBlk V c ⟨n + 1, hn⟩) (lanesBlk V c ⟨n + 1, hn⟩)) (if_neg h)

/-! ## The region's invariant -/

/-- The invariant before position `n`: at the entry what the region is handed; afterwards the scratch at the running
    minimum the point before left. -/
def Phi (c : Dev nD) : (n : ℕ) → n ≤ cfg0.N → sProp 𝕄
  | 0, _ => Pipeline.ΦA spec0 c
  | n + 1, hn => iprop((owns (c : Thread nD τ) scr fullShare (accAt V c n hn) ∗ others c) ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop((owns (c : Thread nD τ) scr fullShare (accAt V c n hn) ∗ others c) ∗ (∃ r, prngReg c r)) := rfl

theorem Phi_pos (c : Dev nD) (n : ℕ) (h : n ≤ cfg0.N) (hz : n ≠ 0) :
    Phi V c n h = iprop((owns (c : Thread nD τ) scr fullShare (accAt V c (n - 1) (by omega)) ∗ others c) ∗ (∃ r, prngReg c r)) := by
  cases n with
  | zero => exact absurd rfl hz
  | succ n => rfl

/-- Whatever the position, the invariant holds the scratch at SOME contents. -/
theorem Phi_any (c : Dev nD) (n : ℕ) (h : n ≤ cfg0.N) :
    Phi V c n h ⊢ Entry c := by
  cases n with
  | zero => rw [Phi_zero V c 0 h rfl]; exact PhiA_open c
  | succ n =>
    rw [Phi_succ]
    iintro ⟨⟨HS, Ho⟩, Hg⟩
    isplitl [HS Ho]
    · isplitl [HS]
      · iexists _; iexact HS
      iexact Ho
    iexact Hg

/-! ## The proof data -/

/-- The pipeline's proof data on core `c`: the arrays as the region finds them; after the body each input's buffer at
    its block and the output's at the running minimum (read only where the body stores it: at the last tile of a
    sweep); the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem after_lanes (c : Dev nD) (t : Fin cfg0.N) : (dat V c).after 0 t = iblk V c 0 t := by dsimp only [dat]
theorem after_tile (c : Dev nD) (t : Fin cfg0.N) : (dat V c).after 1 t = iblk V c 1 t := by dsimp only [dat]
theorem after_out (c : Dev nD) (t : Fin cfg0.N) : (dat V c).after 2 t = accAt V c t.val t.isLt := by dsimp only [dat]

theorem before_lanes (c : Dev nD) (t : Fin cfg0.N) (d) : (dat V c).before 0 t d = iblk V c 0 t :=
  before_lanes_of V (dat V c) (A_eq V c 0) (after_lanes V c) t d
theorem before_tile (c : Dev nD) (t : Fin cfg0.N) (d) : (dat V c).before 1 t d = iblk V c 1 t :=
  before_tile_of V (dat V c) (A_eq V c 1) (after_tile V c) t d

theorem Phi_castSucc (c : Dev nD) (t : Fin cfg0.N) :
    (dat V c).Φ t.castSucc = Phi V c t.val (Nat.le_of_lt t.isLt) := by
  dsimp only [dat]; simp only [Fin.coe_castSucc]

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point: the inputs' buffers hold their blocks; the point's place in its sweep says which run applies;
    the invariant hands the scratch over at what the point before left (at anything where a sweep begins) and takes it
    back at this point's running minimum; off the last tile the output block goes back as it came. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_lanes, before_tile]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st0_0 t) fullShare ((dat V c).after 0 t) from by
    unfold Dat.leavesExact; rw [live_lanes t], after_lanes]
  rw [show (dat V c).leavesExact 1 t = owns (c : Thread nD τ) (st0_1 t) fullShare ((dat V c).after 1 t) from by
    unfold Dat.leavesExact; rw [live_tile t], after_tile]
  have hN : t.val < 128 := lt_of_lt_of_eq t.isLt (show cfg0.N = 128 from N_0)
  by_cases h0 : t.val % 16 = 0
  · have h1 : ¬t.val % 16 = 15 := by omega
    have hl : ¬isLast (grid0.coords t) := fun h => h1 ((isLast_iff t).mp h)
    rw [Dat.leavesExact_idle (dat V c) 2 t (idle_out t hl) (noFlush_out t hl), accAt_first V c t h0, Phi_castSucc V c t]
    iintro ⟨HΦ, Ho, ⟨%d0, H0⟩, ⟨%d1, H1⟩, ⟨%d2, H2⟩⟩
    ihave HΦ' := (Phi_any V c t.val (Nat.le_of_lt t.isLt)) $$ HΦ
    icases HΦ' with ⟨⟨HS, Hoth⟩, Hg⟩
    iapply (run_first c Set.univ (grid0.coords t) _ _ _ _ _ _ _ _ ((isFirst_iff t).mpr h0) hl (lanesBlk V c t) (tileBlk V c t) _ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hf : ¬isFirst (grid0.coords t) := fun h => h0 ((isFirst_iff t).mp h)
    have hz : t.val ≠ 0 := fun e => h0 (by rw [e])
    rw [accAt_next V c t h0, Phi_castSucc V c t, Phi_pos V c _ _ hz]
    by_cases h1 : t.val % 16 = 15
    · have hl : isLast (grid0.coords t) := (isLast_iff t).mpr h1
      rw [show (dat V c).leavesExact 2 t = owns (c : Thread nD τ) (st0_2 t) fullShare ((dat V c).after 2 t) from by
        unfold Dat.leavesExact; rw [live_out t hl], after_out, accAt_next V c t h0]
      iintro ⟨⟨⟨HS, Hoth⟩, Hg⟩, Ho, ⟨%d0, H0⟩, ⟨%d1, H1⟩, ⟨%d2, H2⟩⟩
      iapply (run_last c Set.univ (grid0.coords t) _ _ _ _ _ _ _ _ hf hl (lanesBlk V c t) (tileBlk V c t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hl : ¬isLast (grid0.coords t) := fun h => h1 ((isLast_iff t).mp h)
      rw [Dat.leavesExact_idle (dat V c) 2 t (idle_out t hl) (noFlush_out t hl)]
      iintro ⟨⟨⟨HS, Hoth⟩, Hg⟩, Ho, ⟨%d0, H0⟩, ⟨%d1, H1⟩, ⟨%d2, H2⟩⟩
      iapply (run_mid c Set.univ (grid0.coords t) _ _ _ _ _ _ _ _ hf hl (lanesBlk V c t) (tileBlk V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant's two ends -/

/-- What the region is entered with is the invariant before the first point. -/
theorem Phi_in (c : Dev nD) : Pipeline.ΦA spec0 c ⊢ (dat V c).Φ 0 := by
  rw [show (dat V c).Φ 0 = Phi V c 0 (Nat.zero_le _) from rfl, Phi_zero V c 0 _ rfl]

/-- After the last point the invariant gives that back, the scratch's contents forgotten. -/
theorem Phi_out (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl]
  exact (Phi_any V c _ _).trans (PhiA_close c)

end AtEntry

end Cert.KernelIdeal.RowMin

end
-- ==== Proof.ColScoped.lean ====
/-
  The scoped buffers of the core that are no staging buffer of the column-minimum kernel: its scratch, which holds the
  running minimum, and the first kernel's staging buffers and scratch, which it never touches.  What the region is
  handed at its entry — each of them at some contents, and the generator register — sorted into the scratch on one side
  and the rest on the other, and back.
-/
import proofs.«106404_j2714419331831_1_alg».proof.Proof.Gen.KernelIdeal.Launch
import Idealize.ShloMosaic.Lib.Pipeline.Frame

noncomputable section

namespace Cert.KernelIdeal.ColMin

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch, as the memref the body is handed. -/
abbrev scr : Memref sig .tc .vmem S1x2048 .f32 := Memref.whole cc1_scratch0

/-- The core's other scoped buffers, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scratch at anything, the other scoped buffers, the generator register. -/
abbrev Entry (c : Dev nD) : sProp 𝕄 :=
  iprop(((∃ d, owns (c : Thread nD τ) scr fullShare d) ∗ others c) ∗ (∃ r, prngReg c r))

/-- What the region is entered with, sorted (the scratch comes last among the scoped buffers). -/
theorem PhiA_open (c : Dev nD) : (Pipeline.ΦA spec1 c : sProp 𝕄) ⊢ Entry c := by
  unfold Pipeline.ΦA Entry others; rw [scopedRest1_eq]; simp only [scr, owns_whole]
  iintro ⟨⟨Ha, Hb, Hc, Hd, He, Hf, Hh, Hs⟩, Hg⟩
  isplitl [Hs Ha Hb Hc Hd He Hf Hh]
  · isplitl [Hs]; · iexact Hs
    isplitl [Ha]; · iexact Ha
    isplitl [Hb]; · iexact Hb
    isplitl [Hc]; · iexact Hc
    isplitl [Hd]; · iexact Hd
    isplitl [He]; · iexact He
    isplitl [Hf]; · iexact Hf
    iexact Hh
  iexact Hg

/-- And put back. -/
theorem PhiA_close (c : Dev nD) : Entry c ⊢ (Pipeline.ΦA spec1 c : sProp 𝕄) := by
  unfold Pipeline.ΦA Entry others; rw [scopedRest1_eq]; simp only [scr, owns_whole]
  iintro ⟨⟨Hs, Ha, Hb, Hc, Hd, He, Hf, Hh⟩, Hg⟩
  isplitl [Hs Ha Hb Hc Hd He Hf Hh]
  · isplitl [Ha]; · iexact Ha
    isplitl [Hb]; · iexact Hb
    isplitl [Hc]; · iexact Hc
    isplitl [Hd]; · iexact Hd
    isplitl [He]; · iexact He
    isplitl [Hf]; · iexact Hf
    isplitl [Hh]; · iexact Hh
    iexact Hs
  iexact Hg

end Cert.KernelIdeal.ColMin

end
-- ==== Proof.ColMin.lean ====
/-
  The column-minimum kernel, one grid point at a time.  The grid is 16 blocks of 2048 polyline points by 8 tiles of 512
  points, the tile index moving fastest: a grid point's position in its sweep is its index modulo 8.  The body keeps a
  running minimum, one entry per point of the block, in a scratch buffer: at the first tile of a sweep it resets the
  scratch to +∞; at every tile it lowers the scratch to the minimum of what it holds and this tile's column minima;
  at the last tile it copies the scratch into the output block, which the pipeline then writes back.
-/
import proofs.«106404_j2714419331831_1_alg».proof.Proof.Gen.KernelIdeal.Launch
import proofs.«106404_j2714419331831_1_alg».proof.Proof.Gen.KernelIdeal.Skeleton
import proofs.«106404_j2714419331831_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
import proofs.«106404_j2714419331831_1_alg».proof.Proof.ColScoped

set_option maxRecDepth 16384

noncomputable section

namespace Cert.KernelIdeal.ColMin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where a point stands in its sweep -/

/-- The body's first branch: the tile index is 0. -/
abbrev isFirst (i : grid1.Coords) : Prop :=
  (Scalar.cmpi .ne (Scalar.extui (Scalar.cmpi .eq (BitVec.ofNat 32 (i 1).val) 0#32)) 0#32) = 1#1
/-- The body's second branch: the tile index is the last. -/
abbrev isLast (i : grid1.Coords) : Prop := k1_cond2 i = 1#1

theorem isFirst_iff : ∀ t : Fin cfg1.N, isFirst (grid1.coords t) ↔ t.val % 8 = 0 :=
  (by decide +kernel : ∀ t : Fin grid1.N, isFirst (grid1.coords t) ↔ t.val % 8 = 0)
theorem isLast_iff : ∀ t : Fin cfg1.N, isLast (grid1.coords t) ↔ t.val % 8 = 7 :=
  (by decide +kernel : ∀ t : Fin grid1.N, isLast (grid1.coords t) ↔ t.val % 8 = 7)

/-- The two input windows are live at every point. -/
theorem live_lanes : ∀ t : Fin cfg1.N, cfg1.idle 0 (grid1.coords t) = false := by decide +kernel
theorem live_tile : ∀ t : Fin cfg1.N, cfg1.idle 1 (grid1.coords t) = false := by decide +kernel
/-- Off the last tile the output window is idle and is not written back; -/
theorem idle_out : ∀ t : Fin cfg1.N, ¬isLast (grid1.coords t) → cfg1.idle 2 (grid1.coords t) = true := by decide +kernel
theorem noFlush_out : ∀ t : Fin cfg1.N, ¬isLast (grid1.coords t) → (cfg1.win 2).flush t = false := by decide +kernel
/-- on the last tile it is live. -/
theorem live_out : ∀ t : Fin cfg1.N, isLast (grid1.coords t) → cfg1.idle 2 (grid1.coords t) = false := by decide +kernel

/-- Every access of the body starts at the origin of its buffer. -/
theorem origin : (![0, 0] : Fin 2 → Nat) = fun _ => 0 := funext fun a => by fin_cases a <;> rfl

/-! ## The body's run, by the point's place in its sweep

On whole memrefs — the two input blocks at contents `x0` (the block the minima are taken for, coordinates by rows) and `x1`
(the tile of the other set, coordinates by columns), the output block and the scratch as stated — the body runs to its end,
leaving the inputs as they were and the scratch lowered by this tile's minima. -/

set_option maxHeartbeats 1000000 in
/-- First tile of a sweep: the scratch, whatever it held, is reset and then lowered; the output block is untouched. -/
theorem run_first (c : Dev nD) (E : Set ℕ) (i : grid1.Coords)
    (arg2 : Memref sig .tc .vmem S2x2048 .f32) (harg2 : arg2.IsWhole) (arg3 : Memref sig .tc .vmem S512x2 .f32) (harg3 : arg3.IsWhole)
    (arg4 : Memref sig .tc .vmem S1x2048 .f32) (harg4 : arg4.IsWhole) (arg5 : Memref sig .tc .vmem S1x2048 .f32) (harg5 : arg5.IsWhole)
    (hc0 : isFirst i) (hc1 : ¬isLast i)
    (x0 : Vec F S2x2048 .f32) (x1 : Vec F S512x2 .f32) (xo : Vec F S1x2048 .f32)
    (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
            ∗ owns (c : Thread nD τ) arg5 fullShare (k1_pay2 x1 x0 (k1_pay1 (F := F)))) -∗ K ⟨⟩))
      ⊢ wp frame (wpE (defs₀ (F := F)) Variants.none c none) E (cc1__col_min_kernel i arg2 harg2 arg3 harg3 arg4 harg4 arg5 harg5) K := by
  simp only [cc1__col_min_kernel_eq_skeleton]; unfold cc1__col_min_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (View.cover_of_tiled _ S1x2048.size (by rfl)), View.canon_cons_unit_zero origin]
  simp only [View.readAt_eq_ld, harg2.read_unread, harg3.read_unread, View.ld_unit_zero (S := S512x2) origin,
    View.ld_unit_zero (S := S2x2048) origin, View.readCov_unit_zero (S := S1x2048) _ origin]

set_option maxHeartbeats 1000000 in
/-- A middle tile: the scratch at `xs` is lowered; the output block is untouched. -/
theorem run_mid (c : Dev nD) (E : Set ℕ) (i : grid1.Coords)
    (arg2 : Memref sig .tc .vmem S2x2048 .f32) (harg2 : arg2.IsWhole) (arg3 : Memref sig .tc .vmem S512x2 .f32) (harg3 : arg3.IsWhole)
    (arg4 : Memref sig .tc .vmem S1x2048 .f32) (harg4 : arg4.IsWhole) (arg5 : Memref sig .tc .vmem S1x2048 .f32) (harg5 : arg5.IsWhole)
    (hc0 : ¬isFirst i) (hc1 : ¬isLast i)
    (x0 : Vec F S2x2048 .f32) (x1 : Vec F S512x2 .f32) (xo : Vec F S1x2048 .f32) (xs : Vec F S1x2048 .f32)
    (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (k1_pay2 x1 x0 xs)) -∗ K ⟨⟩))
      ⊢ wp frame (wpE (defs₀ (F := F)) Variants.none c none) E (cc1__col_min_kernel i arg2 harg2 arg3 harg3 arg4 harg4 arg5 harg5) K := by
  simp only [cc1__col_min_kernel_eq_skeleton]; unfold cc1__col_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [View.read_writes_eq_canon _ _ _ (View.cover_of_tiled _ S1x2048.size (by rfl)), View.canon_unit_zero origin]
  simp only [View.readAt_eq_ld, harg2.read_unread, harg3.read_unread, harg5.read_unread, View.ld_unit_zero (S := S512x2) origin,
    View.ld_unit_zero (S := S2x2048) origin, View.ld_unit_zero (S := S1x2048) origin]

set_option maxHeartbeats 1000000 in
/-- Last tile of a sweep: the scratch at `xs` is lowered, and the output block, whatever it held, receives the result. -/
theorem run_last (c : Dev nD) (E : Set ℕ) (i : grid1.Coords)
    (arg2 : Memref sig .tc .vmem S2x2048 .f32) (harg2 : arg2.IsWhole) (arg3 : Memref sig .tc .vmem S512x2 .f32) (harg3 : arg3.IsWhole)
    (arg4 : Memref sig .tc .vmem S1x2048 .f32) (harg4 : arg4.IsWhole) (arg5 : Memref sig .tc .vmem S1x2048 .f32) (harg5 : arg5.IsWhole)
    (hc0 : ¬isFirst i) (hc1 : isLast i)
    (x0 : Vec F S2x2048 .f32) (x1 : Vec F S512x2 .f32) (xs : Vec F S1x2048 .f32)
    (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k1_pay2 x1 x0 xs)
            ∗ owns (c : Thread nD τ) arg5 fullShare (k1_pay2 x1 x0 xs)) -∗ K ⟨⟩))
      ⊢ wp frame (wpE (defs₀ (F := F)) Variants.none c none) E (cc1__col_min_kernel i arg2 harg2 arg3 harg3 arg4 harg4 arg5 harg5) K := by
  simp only [cc1__col_min_kernel_eq_skeleton]; unfold cc1__col_min_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (View.cover_of_tiled _ S1x2048.size (by rfl)), View.canon_unit_zero origin]
    simp only [View.readAt_eq_ld, harg2.read_unread, harg3.read_unread, harg5.read_unread, View.ld_unit_zero (S := S512x2) origin,
      View.ld_unit_zero (S := S2x2048) origin, View.ld_unit_zero (S := S1x2048) origin, View.readCov_unit_zero (S := S1x2048) _ origin]
  iexists _; isplitr
  swap; · iexact HS
  ipureintro
  sl_unfold_run_names
  rw [View.read_writes_eq_canon _ _ _ (View.cover_of_tiled _ S1x2048.size (by rfl)), View.canon_unit_zero origin]
  simp only [View.readAt_eq_ld, harg2.read_unread, harg3.read_unread, harg5.read_unread, View.ld_unit_zero (S := S512x2) origin,
    View.ld_unit_zero (S := S2x2048) origin, View.ld_unit_zero (S := S1x2048) origin]

/-! ## The blocks the region reads, at the contents `V` it is entered with -/

section AtEntry

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of points the minima are taken for (two rows: the x and the y coordinates) grid point `t` works on, -/
abbrev lanesBlk (c : Dev nD) (t : Fin cfg1.N) : Vec F S2x2048 .f32 := iblk V c 0 t
/-- and its tile of the other set's points (two columns). -/
abbrev tileBlk (c : Dev nD) (t : Fin cfg1.N) : Vec F S512x2 .f32 := iblk V c 1 t

/-- An input window's staging buffer holds its block at every point, fetched there or not (the first window's block is
    fetched at the first tile of a sweep only and stays), for any proof data over these arrays whose body leaves it in place. -/
theorem before_lanes_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_tile_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The running minimum -/

/-- What the scratch holds after the body at point `n`: this tile's lowering of +∞ at the first tile of a sweep, of what
    the point before left otherwise. -/
def accAt (c : Dev nD) : (n : ℕ) → n < cfg1.N → Vec F S1x2048 .f32
  | 0, hn => k1_pay2 (tileBlk V c ⟨0, hn⟩) (lanesBlk V c ⟨0, hn⟩) (k1_pay1 (F := F))
  | n + 1, hn => k1_pay2 (tileBlk V c ⟨n + 1, hn⟩) (lanesBlk V c ⟨n + 1, hn⟩)
      (if (n + 1) % 8 = 0 then k1_pay1 (F := F) else accAt c n (Nat.lt_of_succ_lt hn))

theorem accAt_first (c : Dev nD) (t : Fin cfg1.N) (h : t.val % 8 = 0) :
    accAt V c t.val t.isLt = k1_pay2 (tileBlk V c t) (lanesBlk V c t) (k1_pay1 (F := F)) := by
  obtain ⟨n, hn⟩ := t
  cases n with
  | zero => rfl
  | succ n => exact congrArg (k1_pay2 (tileBlk V c ⟨n + 1, hn⟩) (lanesBlk V c ⟨n + 1, hn⟩)) (if_pos h)

theorem accAt_next (c : Dev nD) (t : Fin cfg1.N) (h : ¬t.val % 8 = 0) :
    accAt V c t.val t.isLt
      = k1_pay2 (tileBlk V c t) (lanesBlk V c t) (accAt V c (t.val - 1) (Nat.lt_of_le_of_lt (Nat.sub_le _ _) t.isLt)) := by
  obtain ⟨n, hn⟩ := t
  cases n with
  | zero => exact absurd (Nat.zero_mod _) h
  | succ n => exact congrArg (k1_pay2 (tileBlk V c ⟨n + 1, hn⟩) (lanesBlk V c ⟨n + 1, hn⟩)) (if_neg h)

/-! ## The region's invariant -/

/-- The invariant before position `n`: at the entry what the region is handed; afterwards the scratch at the running
    minimum the point before left. -/
def Phi (c : Dev nD) : (n : ℕ) → n ≤ cfg1.N → sProp 𝕄
  | 0, _ => Pipeline.ΦA spec1 c
  | n + 1, hn => iprop((owns (c : Thread nD τ) scr fullShare (accAt V c n hn) ∗ others c) ∗ (∃ r, prngReg c r))

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop((owns (c : Thread nD τ) scr fullShare (accAt V c n hn) ∗ others c) ∗ (∃ r, prngReg c r)) := rfl

theorem Phi_pos (c : Dev nD) (n : ℕ) (h : n ≤ cfg1.N) (hz : n ≠ 0) :
    Phi V c n h = iprop((owns (c : Thread nD τ) scr fullShare (accAt V c (n - 1) (by omega)) ∗ others c) ∗ (∃ r, prngReg c r)) := by
  cases n with
  | zero => exact absurd rfl hz
  | succ n => rfl

/-- Whatever the position, the invariant holds the scratch at SOME contents. -/
theorem Phi_any (c : Dev nD) (n : ℕ) (h : n ≤ cfg1.N) :
    Phi V c n h ⊢ Entry c := by
  cases n with
  | zero => rw [Phi_zero V c 0 h rfl]; exact PhiA_open c
  | succ n =>
    rw [Phi_succ]
    iintro ⟨⟨HS, Ho⟩, Hg⟩
    isplitl [HS Ho]
    · isplitl [HS]
      · iexists _; iexact HS
      iexact Ho
    iexact Hg

/-! ## The proof data -/

/-- The pipeline's proof data on core `c`: the arrays as the region finds them; after the body each input's buffer at
    its block and the output's at the running minimum (read only where the body stores it: at the last tile of a
    sweep); the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => accAt V c t.val t.isLt
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_lanes (c : Dev nD) (t : Fin cfg1.N) : (dat V c).after 0 t = iblk V c 0 t := by dsimp only [dat]
theorem after_tile (c : Dev nD) (t : Fin cfg1.N) : (dat V c).after 1 t = iblk V c 1 t := by dsimp only [dat]
theorem after_out (c : Dev nD) (t : Fin cfg1.N) : (dat V c).after 2 t = accAt V c t.val t.isLt := by dsimp only [dat]

theorem before_lanes (c : Dev nD) (t : Fin cfg1.N) (d) : (dat V c).before 0 t d = iblk V c 0 t :=
  before_lanes_of V (dat V c) (A_eq V c 0) (after_lanes V c) t d
theorem before_tile (c : Dev nD) (t : Fin cfg1.N) (d) : (dat V c).before 1 t d = iblk V c 1 t :=
  before_tile_of V (dat V c) (A_eq V c 1) (after_tile V c) t d

theorem Phi_castSucc (c : Dev nD) (t : Fin cfg1.N) :
    (dat V c).Φ t.castSucc = Phi V c t.val (Nat.le_of_lt t.isLt) := by
  dsimp only [dat]; simp only [Fin.coe_castSucc]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point: the inputs' buffers hold their blocks; the point's place in its sweep says which run applies;
    the invariant hands the scratch over at what the point before left (at anything where a sweep begins) and takes it
    back at this point's running minimum; off the last tile the output block goes back as it came. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_lanes, before_tile]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st1_0 t) fullShare ((dat V c).after 0 t) from by
    unfold Dat.leavesExact; rw [live_lanes t], after_lanes]
  rw [show (dat V c).leavesExact 1 t = owns (c : Thread nD τ) (st1_1 t) fullShare ((dat V c).after 1 t) from by
    unfold Dat.leavesExact; rw [live_tile t], after_tile]
  have hN : t.val < 128 := lt_of_lt_of_eq t.isLt (show cfg1.N = 128 from N_1)
  by_cases h0 : t.val % 8 = 0
  · have h1 : ¬t.val % 8 = 7 := by omega
    have hl : ¬isLast (grid1.coords t) := fun h => h1 ((isLast_iff t).mp h)
    rw [Dat.leavesExact_idle (dat V c) 2 t (idle_out t hl) (noFlush_out t hl), accAt_first V c t h0, Phi_castSucc V c t]
    iintro ⟨HΦ, Ho, ⟨%d0, H0⟩, ⟨%d1, H1⟩, ⟨%d2, H2⟩⟩
    ihave HΦ' := (Phi_any V c t.val (Nat.le_of_lt t.isLt)) $$ HΦ
    icases HΦ' with ⟨⟨HS, Hoth⟩, Hg⟩
    iapply (run_first c Set.univ (grid1.coords t) _ _ _ _ _ _ _ _ ((isFirst_iff t).mpr h0) hl (lanesBlk V c t) (tileBlk V c t) _ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hf : ¬isFirst (grid1.coords t) := fun h => h0 ((isFirst_iff t).mp h)
    have hz : t.val ≠ 0 := fun e => h0 (by rw [e])
    rw [accAt_next V c t h0, Phi_castSucc V c t, Phi_pos V c _ _ hz]
    by_cases h1 : t.val % 8 = 7
    · have hl : isLast (grid1.coords t) := (isLast_iff t).mpr h1
      rw [show (dat V c).leavesExact 2 t = owns (c : Thread nD τ) (st1_2 t) fullShare ((dat V c).after 2 t) from by
        unfold Dat.leavesExact; rw [live_out t hl], after_out, accAt_next V c t h0]
      iintro ⟨⟨⟨HS, Hoth⟩, Hg⟩, Ho, ⟨%d0, H0⟩, ⟨%d1, H1⟩, ⟨%d2, H2⟩⟩
      iapply (run_last c Set.univ (grid1.coords t) _ _ _ _ _ _ _ _ hf hl (lanesBlk V c t) (tileBlk V c t) _ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hl : ¬isLast (grid1.coords t) := fun h => h1 ((isLast_iff t).mp h)
      rw [Dat.leavesExact_idle (dat V c) 2 t (idle_out t hl) (noFlush_out t hl)]
      iintro ⟨⟨⟨HS, Hoth⟩, Hg⟩, Ho, ⟨%d0, H0⟩, ⟨%d1, H1⟩, ⟨%d2, H2⟩⟩
      iapply (run_mid c Set.univ (grid1.coords t) _ _ _ _ _ _ _ _ hf hl (lanesBlk V c t) (tileBlk V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant's two ends -/

/-- What the region is entered with is the invariant before the first point. -/
theorem Phi_in (c : Dev nD) : Pipeline.ΦA spec1 c ⊢ (dat V c).Φ 0 := by
  rw [show (dat V c).Φ 0 = Phi V c 0 (Nat.zero_le _) from rfl, Phi_zero V c 0 _ rfl]

/-- After the last point the invariant gives that back, the scratch's contents forgotten. -/
theorem Phi_out (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl]
  exact (Phi_any V c _ _).trans (PhiA_close c)

end AtEntry

end Cert.KernelIdeal.ColMin

end
-- ==== Proof.Whole.lean ====
/-
  The whole program as a run: host operations, the row-minimum region, the column-minimum region, host operations.
  Between two of these the core holds every unscoped buffer at contents that are a fold from the launch memory: after a
  stretch of host operations, what those operations compute; after a region, its arrays at what its write-backs leave
  and every other buffer as it was.  Each region is entered from these contents and left at the next; the generator
  register and the scoped buffers ride along; nothing is ever owed.  The run ends with every unscoped buffer at the last
  contents, from which both the arguments (unchanged through the fold) and the result are read.
-/
import proofs.«106404_j2714419331831_1_alg».proof.Proof.RowMin
import proofs.«106404_j2714419331831_1_alg».proof.Proof.ColMin
import proofs.«106404_j2714419331831_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first stretch of host operations (the first region's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (RowMin.dat (E1 m) c).arrAt w cfg0.N
theorem W2_arr (c : Dev nD) (w : Fin cfg0.W) :
    W2 m c (Proc.devRef .tc (Pipeline.arrRef spec0 w)) = (RowMin.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (RowMin.dat (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (ColMin.dat (E2 m) c).arrAt w cfg1.N
theorem W3_arr (c : Dev nD) (w : Fin cfg1.W) :
    W3 m c (Proc.devRef .tc (Pipeline.arrRef spec1 w)) = (ColMin.dat (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (ColMin.dat (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After the last stretch of host operations: the end. -/
abbrev W4 : Dev nD → Valuation τ sig (Elt F) := fun c => StableHlo.after hostOps2 (W3 m c)

/-! ## The proof data family and the thread state -/

/-- Both pipelines' proof data, each at its region's entry contents — a literal match on the pipeline. -/
def pdats : (p : Fin 2) → (c : Dev nD) → Dat τ (Elt F) Unit ℕ (UR sig nD τ) ℕ (Pipeline.pin (pcfgs (F := F)) adm p) c
  | ⟨0, _⟩ => fun c => RowMin.dat (E1 m) c
  | ⟨1, _⟩ => fun c => ColMin.dat (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. Its arrays are split
    out of the unscoped buffers and put back at what the pipeline leaves; the generator register and the scoped rest go
    into the invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (RowMin.body_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (RowMin.dat (E1 m) c).Φ 0 from rfl]
    refine (show _ ⊢ (Pipeline.ΦA spec0 c : sProp 𝕄) from ?_).trans (RowMin.Phi_in (E1 m) c)
    unfold Pipeline.ΦA
    iintro ⟨Hp, -, Hr⟩
    isplitl [Hr]; · iexact Hr
    iexact Hp
  hout c := by
    rw [Pipeline.ownSems0_none, show (pdats m 0 c).Φ (Fin.last _) = (RowMin.dat (E1 m) c).Φ (Fin.last cfg0.N) from rfl]
    refine (RowMin.Phi_out (E1 m) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at what the pipeline leaves; the generator register and the scoped rest go
    into the invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (ColMin.body_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (ColMin.dat (E2 m) c).Φ 0 from rfl]
    refine (show _ ⊢ (Pipeline.ΦA spec1 c : sProp 𝕄) from ?_).trans (ColMin.Phi_in (E2 m) c)
    unfold Pipeline.ΦA
    iintro ⟨Hp, -, Hr⟩
    isplitl [Hr]; · iexact Hr
    iexact Hp
  hout c := by
    rw [Pipeline.ownSems0_none, show (pdats m 1 c).Φ (Fin.last _) = (ColMin.dat (E2 m) c).Φ (Fin.last cfg1.N) from rfl]
    refine (ColMin.Phi_out (E2 m) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

/-- The program's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

/-- The program IS the run of the segments. -/
theorem main_run (c : Dev nD) : main (F := F) c = Pipeline.Seg.run (segs m) := (main_chain c).trans (by chain_rfl)

set_option backward.isDefEq.respectTransparency.types false in
/-- THE RUN. From any memory with zero counters, every weakly fair execution of the program on the TensorCores terminates,
    nothing faulting, and every final memory holds each unscoped buffer at the last contents of the fold. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The arguments end as launched -/

/-- No host operation and no region writes the first argument: the fold at its buffer walks back to the launch memory. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

/-- The same for the second argument. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

/-- THE FRAME: the program runs to its end, nothing faulting, and its argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run_all m ρ)

end Cert.KernelIdeal.Whole

end
-- ==== Proof.LibFinSum.lean ====
/-
  Finite sums re-indexed: a sum over the `m * n` flat positions of a row-major `m × n` table is the sum over its rows of
  the sum along each row (entry `(i, j)` sits at position `i * n + j`), and a sum over the multi-indices of a rank-1
  shape is the sum over its one coordinate.  Only commutativity and associativity of the addition are used, so the
  statements hold in every commutative additive monoid, the extended reals with their infinities included.
-/
import Idealize.ShloMosaic.Lib.ValueIdx

open Idealize.ShloMosaic Idealize.ShloMosaic.ValueIdx

namespace Cert.LibFinSum

/-- Entry `(i, j)` of an `m × n` table sits inside its `m * n` flat positions. -/
theorem coord_lt {m n i j : ℕ} (hi : i < m) (hj : j < n) : i * n + j < m * n :=
  calc i * n + j < i * n + n := by omega
    _ = (i + 1) * n := by ring
    _ ≤ m * n := Nat.mul_le_mul_right n hi

/-- A sum over the flat positions of an `m × n` table, row by row. -/
theorem sum_fin_mul {M : Type*} [AddCommMonoid M] (m n : ℕ) (f : Fin (m * n) → M) :
    ∑ k, f k = ∑ i : Fin m, ∑ j : Fin n, f ⟨i.val * n + j.val, coord_lt i.isLt j.isLt⟩ := by
  rw [← (finProdFinEquiv (m := m) (n := n)).sum_comp f, Fintype.sum_prod_type]
  refine Finset.sum_congr rfl fun i _ => Finset.sum_congr rfl fun j _ => congrArg f (Fin.ext ?_)
  show j.val + n * i.val = i.val * n + j.val
  ring

/-- The same when the number of positions is only known to equal `m * n` (a literal such as `33554432 = 262144 * 128`). -/
theorem sum_fin_of_eq_mul {M : Type*} [AddCommMonoid M] {N : ℕ} (m n : ℕ) (h : N = m * n) (f : Fin N → M) :
    ∑ k, f k = ∑ i : Fin m, ∑ j : Fin n, f ⟨i.val * n + j.val, h ▸ coord_lt i.isLt j.isLt⟩ := by
  subst h
  exact sum_fin_mul m n f

/-- A rank-1 multi-index is its one coordinate. -/
def idxEquiv1 {n : ℕ} : (⟨1, ![n]⟩ : Shape).Idx ≃ Fin n where
  toFun j := j 0
  invFun := ix1
  left_inv j := (eq_ix1 j).symm
  right_inv _ := rfl

/-- A sum over the multi-indices of a rank-1 shape is the sum over its coordinate. -/
theorem sum_idx1 {M : Type*} [AddCommMonoid M] {n : ℕ} (f : (⟨1, ![n]⟩ : Shape).Idx → M) :
    ∑ i, f i = ∑ k : Fin n, f (ix1 k) :=
  (idxEquiv1.symm.sum_comp f).symm

end Cert.LibFinSum
-- ==== Proof.Spec.lean ====
/-
  The chamfer sum between a cloud of 4096 planar points and a polyline of 32768 planar points, over the extended
  reals: each point's distance to the nearest point of the other set, summed over both sets.  The distance between
  two points is the square root of their squared distance clipped from below at a small positive constant; the squared
  distance comes in three spellings — the two difference forms `(r - p)²` and `(p - r)²`, coordinate by coordinate,
  and the expansion `|p|² + |r|² - 2 p·r` — which agree on real coordinates (a polynomial identity) and need not
  agree at an infinity.  A minimum over a long axis may be taken tile by tile from the top element: the minimum over
  the first `k` entries, extended by one more tile, is the minimum of the two.
-/
import Idealize.ShloMosaic.PureOps.Ideal
import Idealize.ShloMosaic.PureOps.Ideal.Laws
import Idealize.ShloMosaic.Lib.ValueIdx
import Mathlib.Data.Finset.Lattice.Fold
import proofs.«106404_j2714419331831_1_alg».proof.Proof.LibFinSum

noncomputable section

namespace Cert.Chamfer

open Idealize.ShloMosaic Idealize.ShloMosaic.ValueIdx

/-! ## The constants both programs share, as their words denote them -/

/-- The zero word denotes 0. -/
theorem zero_word : Ideal.ofBits .f32 0x00000000#32 = 0 := Ideal.ofBits_zero_f32

/-- The word of 2.0 denotes the real 2. -/
theorem two_word : Ideal.ofBits .f32 0x40000000#32 = ((2 : ℝ) : EReal) := by
  simp [Ideal.ofBits, Ideal.ieee]
  norm_num
  rw [← EReal.coe_mul]
  norm_num

/-- The word of +∞ denotes the top element. -/
theorem inf_word : Ideal.ofBits .f32 0x7F800000#32 = (⊤ : EReal) := by
  simp [Ideal.ofBits, Ideal.ieee]

/-- The clipping constant, kept as the word both programs carry: its value is never needed. -/
abbrev eps : EReal := Ideal.ofBits .f32 0x2B8CBCCC#32

/-! ## A distance from a squared distance, and the three spellings of the squared distance -/

/-- The distance belonging to a squared distance `s`: the root of `s` clipped from below at `eps`. -/
def dist (s : EReal) : EReal := Ideal.sqrt (max s eps)

/-- `(rx - px)² + (ry - py)²`. -/
def sqRP (px py rx ry : EReal) : EReal := (rx - px) * (rx - px) + (ry - py) * (ry - py)

/-- `(px - rx)² + (py - ry)²`. -/
def sqPR (px py rx ry : EReal) : EReal := (px - rx) * (px - rx) + (py - ry) * (py - ry)

/-- `(0 + (px² + py²)) + (0 + (rx² + ry²)) - 2 (px rx + py ry)`, the zeros and the two as their words. -/
def sqEx (px py rx ry : EReal) : EReal :=
  ((Ideal.ofBits .f32 0x00000000#32 + (px * px + py * py)) + (Ideal.ofBits .f32 0x00000000#32 + (rx * rx + ry * ry)))
    - Ideal.ofBits .f32 0x40000000#32 * (px * rx + py * ry)

/-- On real coordinates the difference form `(r - p)²` is the expansion. -/
theorem sqRP_eq_sqEx (px py rx ry : ℝ) : sqRP (px : EReal) py rx ry = sqEx (px : EReal) py rx ry := by
  unfold sqRP sqEx
  rw [zero_word, two_word]
  simp only [zero_add, ← EReal.coe_sub, ← EReal.coe_mul, ← EReal.coe_add]
  exact congrArg _ (by ring)

/-- On real coordinates the difference form `(p - r)²` is the expansion. -/
theorem sqPR_eq_sqEx (px py rx ry : ℝ) : sqPR (px : EReal) py rx ry = sqEx (px : EReal) py rx ry := by
  unfold sqPR sqEx
  rw [zero_word, two_word]
  simp only [zero_add, ← EReal.coe_sub, ← EReal.coe_mul, ← EReal.coe_add]
  exact congrArg _ (by ring)

/-! ## The two point sets and their pairwise distances -/

/-- The 4096 points, as the array of their coordinates. -/
abbrev Pts : Type := (⟨2, ![4096, 2]⟩ : Shape).Idx → EReal
/-- The 32768 points of the polyline. -/
abbrev Refs : Type := (⟨2, ![32768, 2]⟩ : Shape).Idx → EReal

/-- Every coordinate is a real number. -/
def AllReal {s : Shape} (A : s.Idx → EReal) : Prop := ∀ i, ∃ x : ℝ, A i = (x : EReal)

/-- The distance of point `p` to polyline point `r`, through the expansion. -/
def dEx (P : Pts) (R : Refs) (p : Fin 4096) (r : Fin 32768) : EReal :=
  dist (sqEx (P (ix2 p 0)) (P (ix2 p 1)) (R (ix2 r 0)) (R (ix2 r 1)))

/-- The same through `(r - p)²`. -/
def dRP (P : Pts) (R : Refs) (p : Fin 4096) (r : Fin 32768) : EReal :=
  dist (sqRP (P (ix2 p 0)) (P (ix2 p 1)) (R (ix2 r 0)) (R (ix2 r 1)))

/-- The same through `(p - r)²`. -/
def dPR (P : Pts) (R : Refs) (p : Fin 4096) (r : Fin 32768) : EReal :=
  dist (sqPR (P (ix2 p 0)) (P (ix2 p 1)) (R (ix2 r 0)) (R (ix2 r 1)))

theorem dRP_eq_dEx {P : Pts} {R : Refs} (hP : AllReal P) (hR : AllReal R) (p : Fin 4096) (r : Fin 32768) :
    dRP P R p r = dEx P R p r := by
  obtain ⟨a, ha⟩ := hP (ix2 p 0)
  obtain ⟨b, hb⟩ := hP (ix2 p 1)
  obtain ⟨c, hc⟩ := hR (ix2 r 0)
  obtain ⟨d, hd⟩ := hR (ix2 r 1)
  unfold dRP dEx
  rw [ha, hb, hc, hd, sqRP_eq_sqEx]

theorem dPR_eq_dEx {P : Pts} {R : Refs} (hP : AllReal P) (hR : AllReal R) (p : Fin 4096) (r : Fin 32768) :
    dPR P R p r = dEx P R p r := by
  obtain ⟨a, ha⟩ := hP (ix2 p 0)
  obtain ⟨b, hb⟩ := hP (ix2 p 1)
  obtain ⟨c, hc⟩ := hR (ix2 r 0)
  obtain ⟨d, hd⟩ := hR (ix2 r 1)
  unfold dPR dEx
  rw [ha, hb, hc, hd, sqPR_eq_sqEx]

/-- The chamfer sum of a table of pairwise distances (`dRow p r` summed over `p` of its minimum over `r`, `dCol p r`
    over `r` of its minimum over `p`), each sum started from the zero word. -/
def chamfer (dRow dCol : Fin 4096 → Fin 32768 → EReal) : EReal :=
  (Ideal.ofBits .f32 0x00000000#32 + ∑ p : Fin 4096, Finset.univ.inf fun r : Fin 32768 => dRow p r)
    + (Ideal.ofBits .f32 0x00000000#32 + ∑ r : Fin 32768, Finset.univ.inf fun p : Fin 4096 => dCol p r)

/-- On real coordinates the chamfer sum through the difference forms is the one through the expansion. -/
theorem chamfer_eq {P : Pts} {R : Refs} (hP : AllReal P) (hR : AllReal R) :
    chamfer (dRP P R) (dPR P R) = chamfer (dEx P R) (dEx P R) := by
  have h1 : dRP P R = dEx P R := funext fun p => funext fun r => dRP_eq_dEx hP hR p r
  have h2 : dPR P R = dEx P R := funext fun p => funext fun r => dPR_eq_dEx hP hR p r
  rw [h1, h2]

/-! ## Minima, tile by tile -/

/-- A fold of `min` from the word of +∞ over all of `Fin n` is the infimum. -/
theorem fold_min_inf_word {n : ℕ} (f : Fin n → EReal) :
    (Finset.univ : Finset (Fin n)).fold min (Ideal.ofBits .f32 0x7F800000#32) f = Finset.univ.inf f := by
  rw [inf_word]
  rfl

/-- The minimum of `f` over its first `k` entries (the top element when `k = 0`). -/
def infBelow {N : ℕ} (f : Fin N → EReal) (k : ℕ) : EReal :=
  (Finset.univ.filter fun r : Fin N => r.val < k).inf f

theorem infBelow_zero {N : ℕ} (f : Fin N → EReal) : infBelow f 0 = ⊤ := by
  simp [infBelow]

/-- One more tile of `B` entries. -/
theorem infBelow_add {N : ℕ} (f : Fin N → EReal) (k B : ℕ) (h : k + B ≤ N) :
    infBelow f (k + B) = min (infBelow f k) (Finset.univ.inf fun s : Fin B => f ⟨k + s.val, by omega⟩) := by
  unfold infBelow
  apply le_antisymm
  -- every index below `k`, and every index `k + s` with `s < B`, lies below `k + B`
  · refine le_min (Finset.le_inf fun r hr => Finset.inf_le ?_) (Finset.le_inf fun s _ => Finset.inf_le ?_)
    · rw [Finset.mem_filter] at hr ⊢
      exact ⟨hr.1, by omega⟩
    · rw [Finset.mem_filter]
      exact ⟨Finset.mem_univ _, by simp only; omega⟩
  -- an index below `k + B` is either below `k` or of the form `k + s` with `s = r - k < B`
  · refine Finset.le_inf fun r hr => ?_
    rw [Finset.mem_filter] at hr
    by_cases hk : r.val < k
    · exact (min_le_left _ _).trans (Finset.inf_le (Finset.mem_filter.2 ⟨Finset.mem_univ _, hk⟩))
    · have hs : r.val - k < B := by omega
      have e : (⟨k + (⟨r.val - k, hs⟩ : Fin B).val, by simp only; omega⟩ : Fin N) = r := Fin.ext (by simp only; omega)
      refine (min_le_right _ _).trans ((Finset.inf_le (Finset.mem_univ (⟨r.val - k, hs⟩ : Fin B))).trans ?_)
      exact le_of_eq (congrArg f e)

theorem infBelow_all {N : ℕ} (f : Fin N → EReal) : infBelow f N = Finset.univ.inf f := by
  simp [infBelow]

/-! ## Sums over the multi-indices of a one-row table -/

/-- A sum over the multi-indices of a `1 × n` shape is the sum over its second coordinate. -/
theorem sum_idx_oneRow {M : Type*} [AddCommMonoid M] {n : ℕ} (f : (⟨2, ![1, n]⟩ : Shape).Idx → M) :
    ∑ i, f i = ∑ k : Fin n, f (ix2 (0 : Fin 1) k) := by
  rw [sum_idx2, Fin.sum_univ_one]

end Cert.Chamfer

end
-- ==== Proof.RowValue.lean ====
/-
  What the row-minimum region leaves in its output array, at the ideal values: at every point `p` the minimum, over all
  32768 polyline points `r`, of the clipped root of `(rx - px)² + (ry - py)²`.  A grid point lowers the running minimum
  of its 512 points by the minima over its tile of 2048 polyline points; after the `k`-th tile of a sweep the running
  minimum is the minimum over the first `k · 2048` polyline points, so at the last tile it is the minimum over all of
  them, and the blocks written back at the last tiles of the 8 sweeps tile the output array.
-/
import proofs.«106404_j2714419331831_1_alg».proof.Proof.RowMin
import proofs.«106404_j2714419331831_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

namespace Cert.KernelIdeal.RowValue

open Cert.KernelIdeal Cert.KernelIdeal.Gen Cert.KernelIdeal.RowMin Cert.Chamfer
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The array the minima are taken for, coordinates by rows, as the region finds it. -/
abbrev lanesArr (c : Dev nD) : (⟨2, ![2, 4096]⟩ : Shape).Idx → EReal := V c main_v5
/-- The other set's array, coordinates by columns. -/
abbrev tileArr (c : Dev nD) : (⟨2, ![32768, 2]⟩ : Shape).Idx → EReal := V c main_v4

/-- The distance of entry `p` of the first array to entry `r` of the second: the clipped root of the squared
    differences, the second array's coordinate minus the first's. -/
def dLane (c : Dev nD) (p : Fin 4096) (r : Fin 32768) : EReal :=
  dist (sqRP (lanesArr V c (ix2 0 p)) (lanesArr V c (ix2 1 p)) (tileArr V c (ix2 r 0)) (tileArr V c (ix2 r 1)))

/-! ## The payloads, entry by entry -/

/-- A one-axis minimum-reduce at the ideal values: the fold of `min` from the accumulator's value over the dropped axis. -/
private theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The index over lane `l` of the reduced table whose coordinate on the dropped axis is `s`. -/
private theorem lift_lane (h : S2048x512.Reduces [0] S512) (l : Fin 512) (s : Fin 2048) :
    h.lift (ix1 l) s = ix2 s l := by
  funext a; apply Fin.ext
  fin_cases a <;> rfl

/-- The first coordinates of the tile's entries, spread along the lanes. -/
private theorem tileFst_apply (v : FVec Ideal S2048x2 .f32) (hs : S2048x2.Slices ![0, 0] S2048x1) (hb : S2048x1.Broadcasts S2048x512)
    (s : Fin 2048) (l : Fin 512) :
    broadcastTo S2048x512 (extractStridedSlice S2048x1 ![0, 0] v hs) hb (ix2 s l) = v (ix2 s 0) := by
  refine (broadcastTo_apply _ hb (ix2 s l) (ix2 s (0 : Fin 1)) fun a => ?_).trans
    (extractStridedSlice_apply _ v hs (ix2 s (0 : Fin 1)) (ix2 s (0 : Fin 2)) fun a => ?_)
  · match a with
    | ⟨0, _⟩ => rfl
    | ⟨1, _⟩ => rfl
  · match a with
    | ⟨0, _⟩ => show s.val = 0 + s.val; omega
    | ⟨1, _⟩ => rfl

/-- The second coordinates of the tile's entries, spread along the lanes. -/
private theorem tileSnd_apply (v : FVec Ideal S2048x2 .f32) (hs : S2048x2.Slices ![0, 1] S2048x1) (hb : S2048x1.Broadcasts S2048x512)
    (s : Fin 2048) (l : Fin 512) :
    broadcastTo S2048x512 (extractStridedSlice S2048x1 ![0, 1] v hs) hb (ix2 s l) = v (ix2 s 1) := by
  refine (broadcastTo_apply _ hb (ix2 s l) (ix2 s (0 : Fin 1)) fun a => ?_).trans
    (extractStridedSlice_apply _ v hs (ix2 s (0 : Fin 1)) (ix2 s (1 : Fin 2)) fun a => ?_)
  · match a with
    | ⟨0, _⟩ => rfl
    | ⟨1, _⟩ => rfl
  · match a with
    | ⟨0, _⟩ => show s.val = 0 + s.val; omega
    | ⟨1, _⟩ => rfl

/-- The first coordinates of the lanes' entries, spread along the tile. -/
private theorem lanesFst_apply (v : FVec Ideal S2x512 .f32) (hs : S2x512.Slices ![0, 0] S1x512) (hb : S1x512.Broadcasts S2048x512)
    (s : Fin 2048) (l : Fin 512) :
    broadcastTo S2048x512 (extractStridedSlice S1x512 ![0, 0] v hs) hb (ix2 s l) = v (ix2 0 l) := by
  refine (broadcastTo_apply _ hb (ix2 s l) (ix2 (0 : Fin 1) l) fun a => ?_).trans
    (extractStridedSlice_apply _ v hs (ix2 (0 : Fin 1) l) (ix2 (0 : Fin 2) l) fun a => ?_)
  · match a with
    | ⟨0, _⟩ => rfl
    | ⟨1, _⟩ => rfl
  · match a with
    | ⟨0, _⟩ => rfl
    | ⟨1, _⟩ => show l.val = 0 + l.val; omega

/-- The second coordinates of the lanes' entries, spread along the tile. -/
private theorem lanesSnd_apply (v : FVec Ideal S2x512 .f32) (hs : S2x512.Slices ![1, 0] S1x512) (hb : S1x512.Broadcasts S2048x512)
    (s : Fin 2048) (l : Fin 512) :
    broadcastTo S2048x512 (extractStridedSlice S1x512 ![1, 0] v hs) hb (ix2 s l) = v (ix2 1 l) := by
  refine (broadcastTo_apply _ hb (ix2 s l) (ix2 (0 : Fin 1) l) fun a => ?_).trans
    (extractStridedSlice_apply _ v hs (ix2 (0 : Fin 1) l) (ix2 (1 : Fin 2) l) fun a => ?_)
  · match a with
    | ⟨0, _⟩ => rfl
    | ⟨1, _⟩ => rfl
  · match a with
    | ⟨0, _⟩ => rfl
    | ⟨1, _⟩ => show l.val = 0 + l.val; omega

/-- The root of a table, entry by entry. -/
private theorem sqrt_apply {s : Shape} {φ : FTy} (a : FVec Ideal s φ) (i : s.Idx) : sqrt a i = Ideal.sqrt (a i) := rfl

/-- The reset value of the running minimum is the top element's word at every lane. -/
theorem pay1_apply (l : Fin 512) : k0_pay1 (F := Ideal) (ix2 (0 : Fin 1) l) = Ideal.ofBits .f32 0x7F800000#32 := by
  unfold k0_pay1
  exact congrFun (shapeCast_self _ _) _

/-- One tile's lowering of the running minimum `xs`, at lane `l`: the minimum of what it held and the distances of the
    lane's entry to the tile's 2048 entries. -/
theorem pay2_apply (x1 : Vec Ideal S2048x2 .f32) (x0 : Vec Ideal S2x512 .f32) (xs : Vec Ideal S1x512 .f32) (l : Fin 512) :
    k0_pay2 (F := Ideal) x1 x0 xs (ix2 (0 : Fin 1) l)
      = min (xs (ix2 0 l)) (Finset.univ.inf fun s : Fin 2048 =>
          dist (sqRP (x0 (ix2 0 l)) (x0 (ix2 1 l)) (x1 (ix2 s 0)) (x1 (ix2 s 1)))) := by
  unfold k0_pay2
  refine (congrFun (shapeCast_self _ _) _).trans ?_
  refine (minimumf_apply _ _ _).trans (congrArg (min (xs (ix2 0 l))) ?_)
  refine (shapeCast_a_1a_apply _ _ (0 : Fin 1) l).trans ?_
  refine (multiReduction_minimumf_single _ _ _ _ _ (ix1 l)).trans ?_
  refine (fold_min_inf_word (n := 2048) _).trans (Finset.inf_congr rfl fun s _ => ?_)
  refine (congrArg _ (lift_lane _ l s)).trans ?_
  simp only [shapeCast_self, sqrt_apply, maximumf_apply, addf_apply, mulf_apply, subf_apply, broadcast_apply,
    tileFst_apply, tileSnd_apply, lanesFst_apply, lanesSnd_apply]
  rfl

/-! ## The blocks a grid point reads, as entries of the two arrays -/

/-- The windows' block indices at a grid point, decided over the grid: the first array's and the output's blocks move with
    the sweep, the second array's with the tile. -/
theorem index_facts : ∀ t : Fin cfg0.N,
    win0_0.index t (0 : Fin 2) = 0 ∧ win0_0.index t (1 : Fin 2) = t.val / 16
    ∧ win0_1.index t (0 : Fin 2) = t.val % 16 ∧ win0_1.index t (1 : Fin 2) = 0
    ∧ win0_2.index t (0 : Fin 2) = 0 ∧ win0_2.index t (1 : Fin 2) = t.val / 16 :=
  (by decide +kernel : ∀ t : Fin grid0.N, _)

theorem point_lt (t : Fin cfg0.N) : t.val < 128 := lt_of_lt_of_eq t.isLt (show cfg0.N = 128 from N_0)

/-- Lane `l` of grid point `t`'s block is this entry of the first array, -/
def laneAt (t : Fin cfg0.N) (l : Fin 512) : Fin 4096 := ⟨t.val / 16 * 512 + l.val, by have := point_lt t; omega⟩
/-- and entry `s` of its tile this entry of the second. -/
def tileAt (t : Fin cfg0.N) (s : Fin 2048) : Fin 32768 := ⟨t.val % 16 * 2048 + s.val, by omega⟩

theorem lanesBlk_apply (c : Dev nD) (t : Fin cfg0.N) (k : Fin 2) (l : Fin 512) :
    lanesBlk V c t (ix2 k l) = lanesArr V c (ix2 k (laneAt t l)) := by
  obtain ⟨e0, e1, -⟩ := index_facts t
  unfold lanesBlk iblk
  rw [View.read_apply]
  show V c main_v5 _ = V c main_v5 _
  refine congrArg (V c main_v5) (funext fun a => Fin.ext ?_)
  match a with
  | ⟨0, _⟩ => show win0_0.index t (0 : Fin 2) * 2 + 1 * k.val = k.val; rw [e0]; omega
  | ⟨1, _⟩ => show win0_0.index t (1 : Fin 2) * 512 + 1 * l.val = t.val / 16 * 512 + l.val; rw [e1]; omega

theorem tileBlk_apply (c : Dev nD) (t : Fin cfg0.N) (s : Fin 2048) (k : Fin 2) :
    tileBlk V c t (ix2 s k) = tileArr V c (ix2 (tileAt t s) k) := by
  obtain ⟨-, -, e0, e1, -⟩ := index_facts t
  unfold tileBlk iblk
  rw [View.read_apply]
  show V c main_v4 _ = V c main_v4 _
  refine congrArg (V c main_v4) (funext fun a => Fin.ext ?_)
  match a with
  | ⟨0, _⟩ => show win0_1.index t (0 : Fin 2) * 2048 + 1 * s.val = t.val % 16 * 2048 + s.val; rw [e0]; omega
  | ⟨1, _⟩ => show win0_1.index t (1 : Fin 2) * 2 + 1 * k.val = k.val; rw [e1]; omega

/-! ## The running minimum, tile by tile -/

/-- One grid point's lowering at lane `l`: if the running minimum stood at the minimum over the tiles before this one,
    it now stands at the minimum over this tile too. -/
theorem step_apply (c : Dev nD) (t : Fin cfg0.N) (xs : Vec Ideal S1x512 .f32) (l : Fin 512)
    (hxs : xs (ix2 0 l) = infBelow (dLane V c (laneAt t l)) (t.val % 16 * 2048)) :
    k0_pay2 (F := Ideal) (tileBlk V c t) (lanesBlk V c t) xs (ix2 (0 : Fin 1) l)
      = infBelow (dLane V c (laneAt t l)) ((t.val % 16 + 1) * 2048) := by
  refine (pay2_apply _ _ xs l).trans ?_
  rw [hxs, show (t.val % 16 + 1) * 2048 = t.val % 16 * 2048 + 2048 from by ring,
    infBelow_add _ _ _ (by omega)]
  refine congrArg (min _) (Finset.inf_congr rfl fun s _ => ?_)
  rw [lanesBlk_apply V c t 0 l, lanesBlk_apply V c t 1 l, tileBlk_apply V c t s 0, tileBlk_apply V c t s 1]
  rfl

/-- AFTER GRID POINT `n` the running minimum at lane `l` is the minimum of the lane's distances over the tiles of the
    sweep up to this one. -/
theorem accAt_apply (c : Dev nD) (n : ℕ) : ∀ (hn : n < cfg0.N) (l : Fin 512),
    accAt V c n hn (ix2 (0 : Fin 1) l) = infBelow (dLane V c (laneAt ⟨n, hn⟩ l)) ((n % 16 + 1) * 2048) := by
  induction n using Nat.strong_induction_on with
  | _ n ih =>
    intro hn l
    by_cases h0 : n % 16 = 0
    · refine (congrFun (accAt_first V c ⟨n, hn⟩ h0) (ix2 0 l)).trans ?_
      refine step_apply V c ⟨n, hn⟩ _ l ?_
      rw [pay1_apply, inf_word]
      show ⊤ = infBelow _ (n % 16 * 2048)
      rw [h0, Nat.zero_mul, infBelow_zero]
    · refine (congrFun (accAt_next V c ⟨n, hn⟩ h0) (ix2 0 l)).trans ?_
      refine step_apply V c ⟨n, hn⟩ _ l ?_
      have hn' : n - 1 < cfg0.N := Nat.lt_of_le_of_lt (Nat.sub_le _ _) hn
      refine (ih (n - 1) (by omega) hn' l).trans ?_
      have e1 : laneAt ⟨n - 1, hn'⟩ l = laneAt ⟨n, hn⟩ l :=
        Fin.ext (by show (n - 1) / 16 * 512 + l.val = n / 16 * 512 + l.val; omega)
      have e2 : ((n - 1) % 16 + 1) * 2048 = n % 16 * 2048 := by omega
      rw [e1, e2]

/-! ## The output array -/

/-- What the output array ends holding: at every entry the minimum over the whole second array. -/
def outArr (c : Dev nD) : (⟨2, ![1, 4096]⟩ : Shape).Idx → EReal := fun j => Finset.univ.inf (dLane V c (j 1))

theorem outArr_apply (c : Dev nD) (i : (⟨2, ![1, 4096]⟩ : Shape).Idx) (p : Fin 4096) (h : (i 1).val = p.val) :
    outArr V c i = Finset.univ.inf (dLane V c p) := by
  unfold outArr
  rw [show i 1 = p from Fin.ext h]

/-- A block of the output window read off any array `G`, entry by entry. -/
theorem outBlk_read_apply (t : Fin cfg0.N) (G : (⟨2, ![1, 4096]⟩ : Shape).Idx → EReal)
    (j : ((cfg0.win 2).xblock (grid0.coords t)).Idx) :
    ((cfg0.win 2).blk t).view.read (Elt Ideal) G j = G (((cfg0.win 2).blk t).view.emb j) := rfl

/-- WHAT THE LAST POINT OF A SWEEP WRITES BACK is its block of `outArr`: the running minimum has seen every tile. -/
theorem flushed_out (c : Dev nD) (t : Fin cfg0.N) (hf : (cfg0.win 2).flush t = true) :
    (dat (F := Ideal) V c).flushed 2 t = ((cfg0.win 2).blk t).view.read (Elt Ideal) (outArr V c) := by
  have h15 : t.val % 16 = 15 := (flush0_2 t).mp hf
  obtain ⟨-, -, -, -, -, e1⟩ := index_facts t
  show (cfg0.win 2).cut (grid0.coords t) ((dat V c).after 2 t) = _
  rw [after_out]
  funext j
  refine Eq.trans ?_ (outBlk_read_apply t (outArr V c) j).symm
  have h0 : (j : S1x512.Idx) 0 = (0 : Fin 1) := Fin.ext (Nat.lt_one_iff.mp ((j : S1x512.Idx) 0).isLt)
  obtain ⟨l, rfl⟩ : ∃ l : Fin 512, j = ix2 (0 : Fin 1) l :=
    ⟨(j : S1x512.Idx) 1, (eq_ix2 (j : S1x512.Idx)).trans (congrArg (fun u : Fin 1 => ix2 u ((j : S1x512.Idx) 1)) h0)⟩
  refine (accAt_apply V c t.val t.isLt l).trans ?_
  have hk : (t.val % 16 + 1) * 2048 = 32768 := by omega
  rw [hk, infBelow_all]
  refine (outArr_apply V c _ (laneAt t l) ?_).symm
  show win0_2.index t (1 : Fin 2) * 512 + 1 * l.val = t.val / 16 * 512 + l.val
  rw [e1]; omega

/-- Every entry of the output array lies in the block of the last point of its sweep. -/
theorem covered_out (i : (⟨2, ![1, 4096]⟩ : Shape).Idx) :
    ∃ t : Fin cfg0.N, (cfg0.win 2).flush t = true ∧ i ∈ ((cfg0.win 2).blk t).view.set := by
  have hi0 : (i 0).val < 1 := (i 0).isLt
  have hi1 : (i 1).val < 4096 := (i 1).isLt
  have hN : cfg0.N = 128 := N_0
  obtain ⟨t, ht⟩ : ∃ t : Fin cfg0.N, t.val = (i 1).val / 512 * 16 + 15 := ⟨⟨(i 1).val / 512 * 16 + 15, by rw [hN]; omega⟩, rfl⟩
  obtain ⟨-, -, -, -, e0, e1⟩ := index_facts t
  refine ⟨t, (flush0_2 t).mpr (by omega), ?_⟩
  show i ∈ ((View.whole (Pipeline.arrRef spec0 2)).slice (win0_2.rect t)).set
  rw [View.set_slice_whole, Rect.mem_set_unit]
  intro a
  match a with
  | ⟨0, _⟩ =>
    show win0_2.index t (0 : Fin 2) * 1 ≤ (i 0).val ∧ (i 0).val < win0_2.index t (0 : Fin 2) * 1 + 1
    rw [e0]; omega
  | ⟨1, _⟩ =>
    show win0_2.index t (1 : Fin 2) * 512 ≤ (i 1).val ∧ (i 1).val < win0_2.index t (1 : Fin 2) * 512 + 512
    rw [e1]; omega

/-- THE REGION'S RESULT: entry `p` of the output array after the region is the minimum of `dLane p` over the whole second
    array. -/
theorem out_apply (c : Dev nD) (p : Fin 4096) :
    ((dat (F := Ideal) V c).arrAt 2 cfg0.N : (⟨2, ![1, 4096]⟩ : Shape).Idx → EReal) (ix2 (0 : Fin 1) p)
      = Finset.univ.inf (dLane V c p) := by
  have h := (dat (F := Ideal) V c).arrAt_eq_of_cover 2 (outArr V c) (flushed_out V c) covered_out
  exact (congrFun h (ix2 (0 : Fin 1) p)).trans (outArr_apply V c _ p rfl)

end Cert.KernelIdeal.RowValue

end
-- ==== Proof.ColValue.lean ====
/-
  What the column-minimum region leaves in its output array, at the ideal values: at every polyline point `r` the minimum,
  over all 4096 points `p`, of the clipped root of `(px - rx)² + (py - ry)²`.  A grid point lowers the running minimum
  of its 2048 polyline points by the minima over its tile of 512 points; after the `k`-th tile of a sweep the running
  minimum is the minimum over the first `k · 512` points, so at the last tile it is the minimum over all of
  them, and the blocks written back at the last tiles of the 16 sweeps tile the output array.
-/
import proofs.«106404_j2714419331831_1_alg».proof.Proof.ColMin
import proofs.«106404_j2714419331831_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

namespace Cert.KernelIdeal.ColValue

open Cert.KernelIdeal Cert.KernelIdeal.Gen Cert.KernelIdeal.ColMin Cert.Chamfer
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The array the minima are taken for, coordinates by rows, as the region finds it. -/
abbrev lanesArr (c : Dev nD) : (⟨2, ![2, 32768]⟩ : Shape).Idx → EReal := V c main_v6
/-- The other set's array, coordinates by columns. -/
abbrev tileArr (c : Dev nD) : (⟨2, ![4096, 2]⟩ : Shape).Idx → EReal := V c main_v1

/-- The distance of entry `p` of the first array to entry `r` of the second: the clipped root of the squared
    differences, the second array's coordinate minus the first's. -/
def dLane (c : Dev nD) (p : Fin 32768) (r : Fin 4096) : EReal :=
  dist (sqRP (lanesArr V c (ix2 0 p)) (lanesArr V c (ix2 1 p)) (tileArr V c (ix2 r 0)) (tileArr V c (ix2 r 1)))

/-! ## The payloads, entry by entry -/

/-- A one-axis minimum-reduce at the ideal values: the fold of `min` from the accumulator's value over the dropped axis. -/
private theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The index over lane `l` of the reduced table whose coordinate on the dropped axis is `s`. -/
private theorem lift_lane (h : S512x2048.Reduces [0] S2048) (l : Fin 2048) (s : Fin 512) :
    h.lift (ix1 l) s = ix2 s l := by
  funext a; apply Fin.ext
  fin_cases a <;> rfl

/-- The first coordinates of the tile's entries, spread along the lanes. -/
private theorem tileFst_apply (v : FVec Ideal S512x2 .f32) (hs : S512x2.Slices ![0, 0] S512x1) (hb : S512x1.Broadcasts S512x2048)
    (s : Fin 512) (l : Fin 2048) :
    broadcastTo S512x2048 (extractStridedSlice S512x1 ![0, 0] v hs) hb (ix2 s l) = v (ix2 s 0) := by
  refine (broadcastTo_apply _ hb (ix2 s l) (ix2 s (0 : Fin 1)) fun a => ?_).trans
    (extractStridedSlice_apply _ v hs (ix2 s (0 : Fin 1)) (ix2 s (0 : Fin 2)) fun a => ?_)
  · match a with
    | ⟨0, _⟩ => rfl
    | ⟨1, _⟩ => rfl
  · match a with
    | ⟨0, _⟩ => show s.val = 0 + s.val; omega
    | ⟨1, _⟩ => rfl

/-- The second coordinates of the tile's entries, spread along the lanes. -/
private theorem tileSnd_apply (v : FVec Ideal S512x2 .f32) (hs : S512x2.Slices ![0, 1] S512x1) (hb : S512x1.Broadcasts S512x2048)
    (s : Fin 512) (l : Fin 2048) :
    broadcastTo S512x2048 (extractStridedSlice S512x1 ![0, 1] v hs) hb (ix2 s l) = v (ix2 s 1) := by
  refine (broadcastTo_apply _ hb (ix2 s l) (ix2 s (0 : Fin 1)) fun a => ?_).trans
    (extractStridedSlice_apply _ v hs (ix2 s (0 : Fin 1)) (ix2 s (1 : Fin 2)) fun a => ?_)
  · match a with
    | ⟨0, _⟩ => rfl
    | ⟨1, _⟩ => rfl
  · match a with
    | ⟨0, _⟩ => show s.val = 0 + s.val; omega
    | ⟨1, _⟩ => rfl

/-- The first coordinates of the lanes' entries, spread along the tile. -/
private theorem lanesFst_apply (v : FVec Ideal S2x2048 .f32) (hs : S2x2048.Slices ![0, 0] S1x2048) (hb : S1x2048.Broadcasts S512x2048)
    (s : Fin 512) (l : Fin 2048) :
    broadcastTo S512x2048 (extractStridedSlice S1x2048 ![0, 0] v hs) hb (ix2 s l) = v (ix2 0 l) := by
  refine (broadcastTo_apply _ hb (ix2 s l) (ix2 (0 : Fin 1) l) fun a => ?_).trans
    (extractStridedSlice_apply _ v hs (ix2 (0 : Fin 1) l) (ix2 (0 : Fin 2) l) fun a => ?_)
  · match a with
    | ⟨0, _⟩ => rfl
    | ⟨1, _⟩ => rfl
  · match a with
    | ⟨0, _⟩ => rfl
    | ⟨1, _⟩ => show l.val = 0 + l.val; omega

/-- The second coordinates of the lanes' entries, spread along the tile. -/
private theorem lanesSnd_apply (v : FVec Ideal S2x2048 .f32) (hs : S2x2048.Slices ![1, 0] S1x2048) (hb : S1x2048.Broadcasts S512x2048)
    (s : Fin 512) (l : Fin 2048) :
    broadcastTo S512x2048 (extractStridedSlice S1x2048 ![1, 0] v hs) hb (ix2 s l) = v (ix2 1 l) := by
  refine (broadcastTo_apply _ hb (ix2 s l) (ix2 (0 : Fin 1) l) fun a => ?_).trans
    (extractStridedSlice_apply _ v hs (ix2 (0 : Fin 1) l) (ix2 (1 : Fin 2) l) fun a => ?_)
  · match a with
    | ⟨0, _⟩ => rfl
    | ⟨1, _⟩ => rfl
  · match a with
    | ⟨0, _⟩ => rfl
    | ⟨1, _⟩ => show l.val = 0 + l.val; omega

/-- The root of a table, entry by entry. -/
private theorem sqrt_apply {s : Shape} {φ : FTy} (a : FVec Ideal s φ) (i : s.Idx) : sqrt a i = Ideal.sqrt (a i) := rfl

/-- The reset value of the running minimum is the top element's word at every lane. -/
theorem pay1_apply (l : Fin 2048) : k1_pay1 (F := Ideal) (ix2 (0 : Fin 1) l) = Ideal.ofBits .f32 0x7F800000#32 := by
  unfold k1_pay1
  exact congrFun (shapeCast_self _ _) _

/-- One tile's lowering of the running minimum `xs`, at lane `l`: the minimum of what it held and the distances of the
    lane's entry to the tile's 512 entries. -/
theorem pay2_apply (x1 : Vec Ideal S512x2 .f32) (x0 : Vec Ideal S2x2048 .f32) (xs : Vec Ideal S1x2048 .f32) (l : Fin 2048) :
    k1_pay2 (F := Ideal) x1 x0 xs (ix2 (0 : Fin 1) l)
      = min (xs (ix2 0 l)) (Finset.univ.inf fun s : Fin 512 =>
          dist (sqRP (x0 (ix2 0 l)) (x0 (ix2 1 l)) (x1 (ix2 s 0)) (x1 (ix2 s 1)))) := by
  unfold k1_pay2
  refine (congrFun (shapeCast_self _ _) _).trans ?_
  refine (minimumf_apply _ _ _).trans (congrArg (min (xs (ix2 0 l))) ?_)
  refine (shapeCast_a_1a_apply _ _ (0 : Fin 1) l).trans ?_
  refine (multiReduction_minimumf_single _ _ _ _ _ (ix1 l)).trans ?_
  refine (fold_min_inf_word (n := 512) _).trans (Finset.inf_congr rfl fun s _ => ?_)
  refine (congrArg _ (lift_lane _ l s)).trans ?_
  simp only [shapeCast_self, sqrt_apply, maximumf_apply, addf_apply, mulf_apply, subf_apply, broadcast_apply,
    tileFst_apply, tileSnd_apply, lanesFst_apply, lanesSnd_apply]
  rfl

/-! ## The blocks a grid point reads, as entries of the two arrays -/

/-- The windows' block indices at a grid point, decided over the grid: the first array's and the output's blocks move with
    the sweep, the second array's with the tile. -/
theorem index_facts : ∀ t : Fin cfg1.N,
    win1_0.index t (0 : Fin 2) = 0 ∧ win1_0.index t (1 : Fin 2) = t.val / 8
    ∧ win1_1.index t (0 : Fin 2) = t.val % 8 ∧ win1_1.index t (1 : Fin 2) = 0
    ∧ win1_2.index t (0 : Fin 2) = 0 ∧ win1_2.index t (1 : Fin 2) = t.val / 8 :=
  (by decide +kernel : ∀ t : Fin grid1.N, _)

theorem point_lt (t : Fin cfg1.N) : t.val < 128 := lt_of_lt_of_eq t.isLt (show cfg1.N = 128 from N_1)

/-- Lane `l` of grid point `t`'s block is this entry of the first array, -/
def laneAt (t : Fin cfg1.N) (l : Fin 2048) : Fin 32768 := ⟨t.val / 8 * 2048 + l.val, by have := point_lt t; omega⟩
/-- and entry `s` of its tile this entry of the second. -/
def tileAt (t : Fin cfg1.N) (s : Fin 512) : Fin 4096 := ⟨t.val % 8 * 512 + s.val, by omega⟩

theorem lanesBlk_apply (c : Dev nD) (t : Fin cfg1.N) (k : Fin 2) (l : Fin 2048) :
    lanesBlk V c t (ix2 k l) = lanesArr V c (ix2 k (laneAt t l)) := by
  obtain ⟨e0, e1, -⟩ := index_facts t
  unfold lanesBlk iblk
  rw [View.read_apply]
  show V c main_v6 _ = V c main_v6 _
  refine congrArg (V c main_v6) (funext fun a => Fin.ext ?_)
  match a with
  | ⟨0, _⟩ => show win1_0.index t (0 : Fin 2) * 2 + 1 * k.val = k.val; rw [e0]; omega
  | ⟨1, _⟩ => show win1_0.index t (1 : Fin 2) * 2048 + 1 * l.val = t.val / 8 * 2048 + l.val; rw [e1]; omega

theorem tileBlk_apply (c : Dev nD) (t : Fin cfg1.N) (s : Fin 512) (k : Fin 2) :
    tileBlk V c t (ix2 s k) = tileArr V c (ix2 (tileAt t s) k) := by
  obtain ⟨-, -, e0, e1, -⟩ := index_facts t
  unfold tileBlk iblk
  rw [View.read_apply]
  show V c main_v1 _ = V c main_v1 _
  refine congrArg (V c main_v1) (funext fun a => Fin.ext ?_)
  match a with
  | ⟨0, _⟩ => show win1_1.index t (0 : Fin 2) * 512 + 1 * s.val = t.val % 8 * 512 + s.val; rw [e0]; omega
  | ⟨1, _⟩ => show win1_1.index t (1 : Fin 2) * 2 + 1 * k.val = k.val; rw [e1]; omega

/-! ## The running minimum, tile by tile -/

/-- One grid point's lowering at lane `l`: if the running minimum stood at the minimum over the tiles before this one,
    it now stands at the minimum over this tile too. -/
theorem step_apply (c : Dev nD) (t : Fin cfg1.N) (xs : Vec Ideal S1x2048 .f32) (l : Fin 2048)
    (hxs : xs (ix2 0 l) = infBelow (dLane V c (laneAt t l)) (t.val % 8 * 512)) :
    k1_pay2 (F := Ideal) (tileBlk V c t) (lanesBlk V c t) xs (ix2 (0 : Fin 1) l)
      = infBelow (dLane V c (laneAt t l)) ((t.val % 8 + 1) * 512) := by
  refine (pay2_apply _ _ xs l).trans ?_
  rw [hxs, show (t.val % 8 + 1) * 512 = t.val % 8 * 512 + 512 from by ring,
    infBelow_add _ _ _ (by omega)]
  refine congrArg (min _) (Finset.inf_congr rfl fun s _ => ?_)
  rw [lanesBlk_apply V c t 0 l, lanesBlk_apply V c t 1 l, tileBlk_apply V c t s 0, tileBlk_apply V c t s 1]
  rfl

/-- AFTER GRID POINT `n` the running minimum at lane `l` is the minimum of the lane's distances over the tiles of the
    sweep up to this one. -/
theorem accAt_apply (c : Dev nD) (n : ℕ) : ∀ (hn : n < cfg1.N) (l : Fin 2048),
    accAt V c n hn (ix2 (0 : Fin 1) l) = infBelow (dLane V c (laneAt ⟨n, hn⟩ l)) ((n % 8 + 1) * 512) := by
  induction n using Nat.strong_induction_on with
  | _ n ih =>
    intro hn l
    by_cases h0 : n % 8 = 0
    · refine (congrFun (accAt_first V c ⟨n, hn⟩ h0) (ix2 0 l)).trans ?_
      refine step_apply V c ⟨n, hn⟩ _ l ?_
      rw [pay1_apply, inf_word]
      show ⊤ = infBelow _ (n % 8 * 512)
      rw [h0, Nat.zero_mul, infBelow_zero]
    · refine (congrFun (accAt_next V c ⟨n, hn⟩ h0) (ix2 0 l)).trans ?_
      refine step_apply V c ⟨n, hn⟩ _ l ?_
      have hn' : n - 1 < cfg1.N := Nat.lt_of_le_of_lt (Nat.sub_le _ _) hn
      refine (ih (n - 1) (by omega) hn' l).trans ?_
      have e1 : laneAt ⟨n - 1, hn'⟩ l = laneAt ⟨n, hn⟩ l :=
        Fin.ext (by show (n - 1) / 8 * 2048 + l.val = n / 8 * 2048 + l.val; omega)
      have e2 : ((n - 1) % 8 + 1) * 512 = n % 8 * 512 := by omega
      rw [e1, e2]

/-! ## The output array -/

/-- What the output array ends holding: at every entry the minimum over the whole second array. -/
def outArr (c : Dev nD) : (⟨2, ![1, 32768]⟩ : Shape).Idx → EReal := fun j => Finset.univ.inf (dLane V c (j 1))

theorem outArr_apply (c : Dev nD) (i : (⟨2, ![1, 32768]⟩ : Shape).Idx) (p : Fin 32768) (h : (i 1).val = p.val) :
    outArr V c i = Finset.univ.inf (dLane V c p) := by
  unfold outArr
  rw [show i 1 = p from Fin.ext h]

/-- A block of the output window read off any array `G`, entry by entry. -/
theorem outBlk_read_apply (t : Fin cfg1.N) (G : (⟨2, ![1, 32768]⟩ : Shape).Idx → EReal)
    (j : ((cfg1.win 2).xblock (grid1.coords t)).Idx) :
    ((cfg1.win 2).blk t).view.read (Elt Ideal) G j = G (((cfg1.win 2).blk t).view.emb j) := rfl

/-- WHAT THE LAST POINT OF A SWEEP WRITES BACK is its block of `outArr`: the running minimum has seen every tile. -/
theorem flushed_out (c : Dev nD) (t : Fin cfg1.N) (hf : (cfg1.win 2).flush t = true) :
    (dat (F := Ideal) V c).flushed 2 t = ((cfg1.win 2).blk t).view.read (Elt Ideal) (outArr V c) := by
  have h15 : t.val % 8 = 7 := (flush1_2 t).mp hf
  obtain ⟨-, -, -, -, -, e1⟩ := index_facts t
  show (cfg1.win 2).cut (grid1.coords t) ((dat V c).after 2 t) = _
  rw [after_out]
  funext j
  refine Eq.trans ?_ (outBlk_read_apply t (outArr V c) j).symm
  have h0 : (j : S1x2048.Idx) 0 = (0 : Fin 1) := Fin.ext (Nat.lt_one_iff.mp ((j : S1x2048.Idx) 0).isLt)
  obtain ⟨l, rfl⟩ : ∃ l : Fin 2048, j = ix2 (0 : Fin 1) l :=
    ⟨(j : S1x2048.Idx) 1, (eq_ix2 (j : S1x2048.Idx)).trans (congrArg (fun u : Fin 1 => ix2 u ((j : S1x2048.Idx) 1)) h0)⟩
  refine (accAt_apply V c t.val t.isLt l).trans ?_
  have hk : (t.val % 8 + 1) * 512 = 4096 := by omega
  rw [hk, infBelow_all]
  refine (outArr_apply V c _ (laneAt t l) ?_).symm
  show win1_2.index t (1 : Fin 2) * 2048 + 1 * l.val = t.val / 8 * 2048 + l.val
  rw [e1]; omega

/-- Every entry of the output array lies in the block of the last point of its sweep. -/
theorem covered_out (i : (⟨2, ![1, 32768]⟩ : Shape).Idx) :
    ∃ t : Fin cfg1.N, (cfg1.win 2).flush t = true ∧ i ∈ ((cfg1.win 2).blk t).view.set := by
  have hi0 : (i 0).val < 1 := (i 0).isLt
  have hi1 : (i 1).val < 32768 := (i 1).isLt
  have hN : cfg1.N = 128 := N_1
  obtain ⟨t, ht⟩ : ∃ t : Fin cfg1.N, t.val = (i 1).val / 2048 * 8 + 7 := ⟨⟨(i 1).val / 2048 * 8 + 7, by rw [hN]; omega⟩, rfl⟩
  obtain ⟨-, -, -, -, e0, e1⟩ := index_facts t
  refine ⟨t, (flush1_2 t).mpr (by omega), ?_⟩
  show i ∈ ((View.whole (Pipeline.arrRef spec1 2)).slice (win1_2.rect t)).set
  rw [View.set_slice_whole, Rect.mem_set_unit]
  intro a
  match a with
  | ⟨0, _⟩ =>
    show win1_2.index t (0 : Fin 2) * 1 ≤ (i 0).val ∧ (i 0).val < win1_2.index t (0 : Fin 2) * 1 + 1
    rw [e0]; omega
  | ⟨1, _⟩ =>
    show win1_2.index t (1 : Fin 2) * 2048 ≤ (i 1).val ∧ (i 1).val < win1_2.index t (1 : Fin 2) * 2048 + 2048
    rw [e1]; omega

/-- THE REGION'S RESULT: entry `p` of the output array after the region is the minimum of `dLane p` over the whole second
    array. -/
theorem out_apply (c : Dev nD) (p : Fin 32768) :
    ((dat (F := Ideal) V c).arrAt 2 cfg1.N : (⟨2, ![1, 32768]⟩ : Shape).Idx → EReal) (ix2 (0 : Fin 1) p)
      = Finset.univ.inf (dLane V c p) := by
  have h := (dat (F := Ideal) V c).arrAt_eq_of_cover 2 (outArr V c) (flushed_out V c) covered_out
  exact (congrFun h (ix2 (0 : Fin 1) p)).trans (outArr_apply V c _ p rfl)

end Cert.KernelIdeal.ColValue

end
-- ==== Proof.KernelValue.lean ====
/-
  The kernel program's result at the ideal values, as the chamfer sum through the two difference forms of the squared
  distance.  The program cuts the points (4096 × 2) and the reversed polyline (32768 × 2) out of its arguments and also
  holds each transposed; the first region leaves, at every point, its minimum distance over the polyline, through
  `(r - p)²`; the second, at every polyline point, its minimum distance over the points, through `(p - r)²`; the last
  host operations sum each row of minima from zero and add the two sums.
-/
import proofs.«106404_j2714419331831_1_alg».proof.Proof.Whole
import proofs.«106404_j2714419331831_1_alg».proof.Proof.RowValue
import proofs.«106404_j2714419331831_1_alg».proof.Proof.ColValue
import proofs.«106404_j2714419331831_1_alg».proof.Proof.Spec
import Idealize.ShloMosaic.Lib.StableHlo.Run
import Idealize.ShloMosaic.Lib.ValueLayout
import Idealize.ShloMosaic.PureOps.Ideal.Laws

set_option maxRecDepth 16384

noncomputable section

namespace Cert.KernelIdeal.KernelValue

open Cert.KernelIdeal Cert.KernelIdeal.Gen Cert.KernelIdeal.Whole Cert.Chamfer
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The points, as the program cuts them out of its first argument. -/
def ptsOf (x0 : (⟨3, ![2, 4096, 2]⟩ : Shape).Idx → EReal) : Pts :=
  shapeCast S4096x2 (extractStridedSlice S1x4096x2 ![0, 0, 0] x0 Facts₀.slices_S2x4096x2_S1x4096x2_0_0_0) Facts₀.shapeCasts_S1x4096x2_S4096x2
/-- The polyline, as the program cuts it out of its second argument and reverses it. -/
def refsOf (x1 : (⟨3, ![2, 32768, 2]⟩ : Shape).Idx → EReal) : Refs :=
  Host.reverse [0] (shapeCast S32768x2 (extractStridedSlice S1x32768x2 ![1, 0, 0] x1 Facts₀.slices_S2x32768x2_S1x32768x2_1_0_0) Facts₀.shapeCasts_S1x32768x2_S32768x2)

/-- The two point sets on core `c`. -/
abbrev pts (c : Dev nD) : Pts := ptsOf (m ((c : Thread nD τ).loc main_arg0))
abbrev refs (c : Dev nD) : Refs := refsOf (m ((c : Thread nD τ).loc main_arg1))

/-! ## What the first host stretch leaves -/

theorem E1_v1 (c : Dev nD) : (E1 m c main_v1 : (⟨2, ![4096, 2]⟩ : Shape).Idx → EReal) = pts m c := by
  show StableHlo.after hostOps0 (fun b => m (c, b)) (Proc.devRef .tc main_v1) = _
  after_results; rfl

theorem E1_v4 (c : Dev nD) : (E1 m c main_v4 : (⟨2, ![32768, 2]⟩ : Shape).Idx → EReal) = refs m c := by
  show StableHlo.after hostOps0 (fun b => m (c, b)) (Proc.devRef .tc main_v4) = _
  after_results; rfl

theorem E1_v5 (c : Dev nD) : (E1 m c main_v5 : (⟨2, ![2, 4096]⟩ : Shape).Idx → EReal)
    = transpose S2x4096 [1, 0] (pts m c) Facts₀.transposes_S4096x2_S2x4096_1_0 := by
  show StableHlo.after hostOps0 (fun b => m (c, b)) (Proc.devRef .tc main_v5) = _
  after_results; rfl

theorem E1_v6 (c : Dev nD) : (E1 m c main_v6 : (⟨2, ![2, 32768]⟩ : Shape).Idx → EReal)
    = transpose S2x32768 [1, 0] (refs m c) Facts₀.transposes_S32768x2_S2x32768_1_0 := by
  show StableHlo.after hostOps0 (fun b => m (c, b)) (Proc.devRef .tc main_v6) = _
  after_results; rfl

/-- The first region changes neither the points nor the transposed polyline. -/
theorem E2_v1 (c : Dev nD) : (E2 m c main_v1 : (⟨2, ![4096, 2]⟩ : Shape).Idx → EReal) = pts m c :=
  (W2_of_ne m c main_v1 (by decide)).trans (E1_v1 m c)
theorem E2_v6 (c : Dev nD) : (E2 m c main_v6 : (⟨2, ![2, 32768]⟩ : Shape).Idx → EReal)
    = transpose S2x32768 [1, 0] (refs m c) Facts₀.transposes_S32768x2_S2x32768_1_0 :=
  (W2_of_ne m c main_v6 (by decide)).trans (E1_v6 m c)

/-! ## The two regions' results -/

/-- The first region's output row at the end of the run, -/
def rowOut (c : Dev nD) : (⟨2, ![1, 4096]⟩ : Shape).Idx → EReal := W3 m c (Proc.devRef .tc main_v7)
/-- and the second region's. -/
def colOut (c : Dev nD) : (⟨2, ![1, 32768]⟩ : Shape).Idx → EReal := W3 m c (Proc.devRef .tc main_v8)

/-- The first region's distances are the points' to the polyline's, through `(r - p)²`. -/
theorem rowLane_eq (c : Dev nD) (p : Fin 4096) : RowValue.dLane (E1 m) c p = fun r => dRP (pts m c) (refs m c) p r := by
  funext r
  unfold RowValue.dLane dRP RowValue.lanesArr RowValue.tileArr
  rw [E1_v5, E1_v4, transpose_ix2_apply, transpose_ix2_apply]

/-- After the first region its output holds, at point `p`, the minimum over the polyline of the distance through `(r - p)²`. -/
theorem rowMin_apply (c : Dev nD) (p : Fin 4096) :
    rowOut m c (ix2 (0 : Fin 1) p)
      = Finset.univ.inf fun r : Fin 32768 => dRP (pts m c) (refs m c) p r := by
  unfold rowOut
  rw [show W3 m c (Proc.devRef .tc main_v7) = W2 m c (Proc.devRef .tc main_v7) from W3_of_ne m c main_v7 (by decide),
    show W2 m c (Proc.devRef .tc main_v7) = (RowMin.dat (E1 m) c).arrAt 2 cfg0.N from W2_arr m c 2]
  exact (RowValue.out_apply (E1 m) c p).trans (congrArg (Finset.univ.inf (α := EReal)) (rowLane_eq m c p))

/-- The second region's distances are the polyline's to the points', which is the points' to the polyline's through
    `(p - r)²`. -/
theorem colLane_eq (c : Dev nD) (r : Fin 32768) : ColValue.dLane (E2 m) c r = fun p => dPR (pts m c) (refs m c) p r := by
  funext p
  unfold ColValue.dLane dPR ColValue.lanesArr ColValue.tileArr
  rw [E2_v6, E2_v1, transpose_ix2_apply, transpose_ix2_apply]
  rfl

/-- After the second region its output holds, at polyline point `r`, the minimum over the points of the distance through
    `(p - r)²`. -/
theorem colMin_apply (c : Dev nD) (r : Fin 32768) :
    colOut m c (ix2 (0 : Fin 1) r)
      = Finset.univ.inf fun p : Fin 4096 => dPR (pts m c) (refs m c) p r := by
  unfold colOut
  rw [show W3 m c (Proc.devRef .tc main_v8) = (ColMin.dat (E2 m) c).arrAt 2 cfg1.N from W3_arr m c 2]
  exact (ColValue.out_apply (E2 m) c r).trans (congrArg (Finset.univ.inf (α := EReal)) (colLane_eq m c r))

/-! ## The result -/

/-- The program's result buffer at the end of the fold: the chamfer sum through the two difference forms. -/
theorem result_eq (c : Dev nD) :
    (W4 m c (Proc.devRef .tc main_v11) : (⟨0, ![]⟩ : Shape).Idx → EReal)
      = fun _ => chamfer (dRP (pts m c) (refs m c)) (dPR (pts m c) (refs m c)) := by
  have e : (W4 m c (Proc.devRef .tc main_v11) : (⟨0, ![]⟩ : Shape).Idx → EReal)
      = addf (Host.reduceAdd (F := Ideal) (rowOut m c) (constant (F := Ideal) S_ .f32 0x00000000#32) Facts₀.reducesTo_S1x4096_S_d0_1 Facts₀.h_S_)
          (Host.reduceAdd (F := Ideal) (colOut m c) (constant (F := Ideal) S_ .f32 0x00000000#32) Facts₀.reducesTo_S1x32768_S_d0_1 Facts₀.h_S_) := by
    unfold rowOut colOut
    show StableHlo.after hostOps2 (W3 m c) (Proc.devRef .tc main_v11) = _
    after_results
  rw [e]
  funext i
  rw [addf_apply]
  simp only [Host.reduceAdd, Ideal.hostReduceAdd_def]
  rw [Ideal.hostReduceAdd_total Facts₀.reducesTo_S1x4096_S_d0_1 (fun b => b.elim0),
    Ideal.hostReduceAdd_total Facts₀.reducesTo_S1x32768_S_d0_1 (fun b => b.elim0),
    sum_idx_oneRow, sum_idx_oneRow]
  have h1 : (∑ k : Fin 4096, rowOut m c (ix2 (0 : Fin 1) k))
      = ∑ p : Fin 4096, Finset.univ.inf fun r : Fin 32768 => dRP (pts m c) (refs m c) p r :=
    Finset.sum_congr rfl fun p _ => rowMin_apply m c p
  have h2 : (∑ k : Fin 32768, colOut m c (ix2 (0 : Fin 1) k))
      = ∑ r : Fin 32768, Finset.univ.inf fun p : Fin 4096 => dPR (pts m c) (refs m c) p r :=
    Finset.sum_congr rfl fun r _ => colMin_apply m c r
  unfold chamfer
  exact congrArg₂ (· + ·) (congrArg (Ideal.ofBits .f32 0x00000000#32 + ·) h1) (congrArg (Ideal.ofBits .f32 0x00000000#32 + ·) h2)

end Cert.KernelIdeal.KernelValue

end
-- ==== Proof.RefValue.lean ====
/-
  The reference program's result, read at the ideal values: the chamfer sum of the two point sets through the expansion
  `|p|² + |r|² - 2 p·r` of the squared distance.  Its row of operations — squares summed along the coordinate axis,
  a 4096 × 2 by 2 × 32768 product, the clipped root, a minimum along each axis, the two sums — is read one stage at a
  time; the two minima are folds of `min` from +∞ along one axis, that is infima over that axis's coordinate.
-/
import proofs.«106404_j2714419331831_1_alg».proof.Defs
import proofs.«106404_j2714419331831_1_alg».proof.Proof.Gen.ReferenceIdeal.Run
import proofs.«106404_j2714419331831_1_alg».proof.Proof.Gen.ReferenceIdeal.Read
import proofs.«106404_j2714419331831_1_alg».proof.Proof.Spec
import Idealize.ShloMosaic.PureOps.Reduce

noncomputable section

namespace Cert.ReferenceIdeal.RefValue

open Cert.ReferenceIdeal Cert.ReferenceIdeal.Gen Cert.ReferenceIdeal.Read Cert.Chamfer
open Idealize.ShloMosaic Idealize.ShloMosaic.ValueIdx

/-- The points as the reference holds them: the first slice of its first argument. -/
abbrev pts (x0 : (⟨S2x4096x2, .f32⟩ : BufTy).Contents (Elt Ideal)) : Pts := val_main_v1 (F := Ideal) x0
/-- The polyline as the reference holds it: the last slice of its second argument, its points in reverse order. -/
abbrev refs (x1 : (⟨S2x32768x2, .f32⟩ : BufTy).Contents (Elt Ideal)) : Refs := val_main_v4 (F := Ideal) x1

/-! ## Where each stage of the table reads its operands

At entry `(p, r)` of the 4096 × 32768 table the squared norms are read at row `p` of the points and row `r` of the
polyline, coordinate `k`, and the product pairs coordinate `k` of point `p` with coordinate `k` of polyline point
`r` (through the transposed polyline). -/

/-- The squared norm of point `p`, broadcast along the polyline axis, reads the points at `(p, k)`. -/
private theorem idx_sqP (p : Fin 4096) (r : Fin 32768) (k : Fin 2) :
    idx_main_v6 (idx_main_v7 (idx_main_v11 (ix2 p r))) k = ix2 p k :=
  funext fun a => Fin.ext (by match a with | ⟨0, _⟩ => rfl | ⟨1, _⟩ => rfl)

/-- The squared norm of polyline point `r`, broadcast along the points axis, reads the polyline at `(r, k)`. -/
private theorem idx_sqR (p : Fin 4096) (r : Fin 32768) (k : Fin 2) :
    idx_main_v9 (idx_main_v10 (idx_main_v12 (ix2 p r))) k = ix2 r k :=
  funext fun a => Fin.ext (by match a with | ⟨0, _⟩ => rfl | ⟨1, _⟩ => rfl)

/-- The product's left factor at `(p, r)`, term `k`, is the points at `(p, k)`. -/
private theorem idx_dotL (p : Fin 4096) (r : Fin 32768) (k : Fin 2) :
    lidx_main_v15 (ix2 p r) k = ix2 p k :=
  funext fun a => Fin.ext (by match a with | ⟨0, _⟩ => rfl | ⟨1, _⟩ => rfl)

/-- The product's right factor at `(p, r)`, term `k`, is the transposed polyline at `(k, r)`: the polyline at `(r, k)`. -/
private theorem idx_dotR (p : Fin 4096) (r : Fin 32768) (k : Fin 2) :
    idx_main_v14 (ridx_main_v15 (ix2 p r) k) = ix2 r k :=
  funext fun a => Fin.ext (by match a with | ⟨0, _⟩ => rfl | ⟨1, _⟩ => rfl)

/-- The clipped root of the expansion, at point `p` and polyline point `r`. -/
theorem dist_apply (x0 : (⟨S2x4096x2, .f32⟩ : BufTy).Contents (Elt Ideal)) (x1 : (⟨S2x32768x2, .f32⟩ : BufTy).Contents (Elt Ideal))
    (p : Fin 4096) (r : Fin 32768) :
    val_main_v21 (F := Ideal) x0 x1 (ix2 p r) = dEx (pts x0) (refs x1) p r := by
  rw [val_main_v21_apply, val_main_v20_apply, val_main_v19_apply, val_main_cst_2_apply, val_main_v18_apply,
    val_main_v17_apply, val_main_v16_apply, val_main_cst_1_apply, val_main_v15_apply, val_main_v13_apply,
    val_main_v11_apply, val_main_v12_apply, val_main_v7_apply, val_main_v10_apply, val_main_v6_apply, val_main_v9_apply,
    val_main_cst_apply, val_main_cst_0_apply]
  simp only [Fin.sum_univ_two, val_main_v14_apply, val_main_v5_apply, val_main_v8_apply,
    idx_sqP, idx_sqR, idx_dotL, idx_dotR,
    Ideal.hostUnary_sqrt_def, Ideal.maximumf_def, Ideal.subf_def, Ideal.mulf_def, Ideal.addf_def, Ideal.ofBits_def]
  unfold dEx Cert.Chamfer.dist sqEx
  rfl

/-! ## The two minima

A minimum-reduce along one axis of the table, started from the word of +∞, is at each index of the other axis the
fold of `min` over the reduced axis's coordinate, hence the infimum over it. -/

/-- Row `p` of the table with column `k` put back is entry `(p, k)`. -/
private theorem lift_row (h : S4096x32768.Reduces [1] S4096) (p : Fin 4096) (k : Fin (S4096x32768.size 1)) :
    h.lift (ix1 p) k = ix2 p (⟨k.val, k.isLt⟩ : Fin 32768) := by
  funext c; apply Fin.ext
  fin_cases c <;> rfl

/-- Column `r` of the table with row `k` put back is entry `(k, r)`. -/
private theorem lift_col (h : S4096x32768.Reduces [0] S32768) (r : Fin 32768) (k : Fin (S4096x32768.size 0)) :
    h.lift (ix1 r) k = ix2 (⟨k.val, k.isLt⟩ : Fin 4096) r := by
  funext c; apply Fin.ext
  fin_cases c <;> rfl

/-- The minimum along the polyline axis. -/
theorem rowMin_apply (x0 : (⟨S2x4096x2, .f32⟩ : BufTy).Contents (Elt Ideal)) (x1 : (⟨S2x32768x2, .f32⟩ : BufTy).Contents (Elt Ideal))
    (p : Fin 4096) :
    val_main_v22 (F := Ideal) x0 x1 (ix1 p) = Finset.univ.inf fun r : Fin 32768 => dEx (pts x0) (refs x1) p r := by
  have h : S4096x32768.Reduces [1] S4096 := by decide
  unfold val_main_v22
  rw [Host.reduce_eq_fold_single FloatOps.minimumf _ _ reducesTo_S4096x32768_S4096_d1 h h_S_, val_main_cst_3_apply]
  have hf : (val_main_v21 (F := Ideal) x0 x1 ∘ h.lift (ix1 p)) = fun r : Fin 32768 => dEx (pts x0) (refs x1) p r :=
    funext fun k => (congrArg (val_main_v21 (F := Ideal) x0 x1) (lift_row h p k)).trans (dist_apply x0 x1 p ⟨k.val, k.isLt⟩)
  rw [hf]
  exact fold_min_inf_word _

/-- The minimum along the points axis. -/
theorem colMin_apply (x0 : (⟨S2x4096x2, .f32⟩ : BufTy).Contents (Elt Ideal)) (x1 : (⟨S2x32768x2, .f32⟩ : BufTy).Contents (Elt Ideal))
    (r : Fin 32768) :
    val_main_v24 (F := Ideal) x0 x1 (ix1 r) = Finset.univ.inf fun p : Fin 4096 => dEx (pts x0) (refs x1) p r := by
  have h : S4096x32768.Reduces [0] S32768 := by decide
  unfold val_main_v24
  rw [Host.reduce_eq_fold_single FloatOps.minimumf _ _ reducesTo_S4096x32768_S32768_d0 h h_S_, val_main_cst_5_apply]
  have hf : (val_main_v21 (F := Ideal) x0 x1 ∘ h.lift (ix1 r)) = fun p : Fin 4096 => dEx (pts x0) (refs x1) p r :=
    funext fun k => (congrArg (val_main_v21 (F := Ideal) x0 x1) (lift_col h r k)).trans (dist_apply x0 x1 ⟨k.val, k.isLt⟩ r)
  rw [hf]
  exact fold_min_inf_word _

/-- The reference's result is the chamfer sum through the expansion. -/
theorem result_eq (x0 : (⟨S2x4096x2, .f32⟩ : BufTy).Contents (Elt Ideal)) (x1 : (⟨S2x32768x2, .f32⟩ : BufTy).Contents (Elt Ideal)) :
    val_main_v26 (F := Ideal) x0 x1 = fun _ => chamfer (dEx (pts x0) (refs x1)) (dEx (pts x0) (refs x1)) := by
  funext i
  rw [val_main_v26_apply, val_main_v23_apply, val_main_v25_apply, val_main_cst_4_apply, val_main_cst_6_apply,
    Cert.LibFinSum.sum_idx1, Cert.LibFinSum.sum_idx1]
  simp only [rowMin_apply, colMin_apply, Ideal.addf_def, Ideal.ofBits_def]
  rfl

end Cert.ReferenceIdeal.RefValue

end
-- ==== Proof.Finite.lean ====
/-
  Finite inputs: where the precondition holds every entry of the two argument arrays is a real number, and so is every
  coordinate of the two point sets cut out of them (a slice, a reshape and a reversal of the point order move entries
  and make none).
-/
import proofs.«106404_j2714419331831_1_alg».proof.Defs
import proofs.«106404_j2714419331831_1_alg».proof.Proof.Gen.ReferenceIdeal.Read
import proofs.«106404_j2714419331831_1_alg».proof.Proof.Gen.Pre_finite_inputs
import proofs.«106404_j2714419331831_1_alg».proof.Proof.Spec
import Idealize.ShloMosaic.Lib.ReduceAll

noncomputable section

namespace Cert.Finite

open Cert.Chamfer Idealize.ShloMosaic Idealize.ShloMosaic.ValueIdx

/-- The result shape of a reduction over every axis has exactly one index. -/
private instance : Subsingleton Cert.Pre_finite_inputs.S_.Idx := ⟨fun _ _ => funext fun d => d.elim0⟩

/-- An extended real whose absolute value lies strictly below the top element is a real number: at either infinity
    the absolute value is the top element itself. -/
private theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- The precondition read at the ideal values: all ones means every entry of both arrays is real. -/
theorem allReal_of_pre [Cert.Pre_finite_inputs.Facts]
    (a0 : (⟨3, ![2, 4096, 2]⟩ : Shape).Idx → EReal) (a1 : (⟨3, ![2, 32768, 2]⟩ : Shape).Idx → EReal)
    (h : Cert.Pre_finite_inputs.fn (F := Ideal) a0 a1 = fun _ => 1#1) : AllReal a0 ∧ AllReal a1 := by
  have h0 := congrFun h ValueIdx.ix0
  dsimp only [Cert.Pre_finite_inputs.fn] at h0
  obtain ⟨h1, h2⟩ := IntOp.andi_eq_one.1 h0
  refine ⟨fun i => ?_, fun i => ?_⟩
  · exact real_of_abs_lt_top (a0 i) (Host.reduce_andi_all _ _ _ _ _ h1 i)
  · exact real_of_abs_lt_top (a1 i) (Host.reduce_andi_all _ _ _ _ _ h2 i)

/-- The points cut out of a real array are real. -/
theorem allReal_pts (x0 : (⟨3, ![2, 4096, 2]⟩ : Shape).Idx → EReal) (h : AllReal x0) :
    AllReal (Cert.ReferenceIdeal.Read.val_main_v1 (F := Ideal) x0) := by
  intro i
  rw [Cert.ReferenceIdeal.Read.val_main_v1_apply, Cert.ReferenceIdeal.Read.val_main_v0_apply]
  exact h _

/-- The polyline cut out of a real array, reversed, is real. -/
theorem allReal_refs (x1 : (⟨3, ![2, 32768, 2]⟩ : Shape).Idx → EReal) (h : AllReal x1) :
    AllReal (Cert.ReferenceIdeal.Read.val_main_v4 (F := Ideal) x1) := by
  intro i
  unfold Cert.ReferenceIdeal.Read.val_main_v4 Host.reverse
  rw [Cert.ReferenceIdeal.Read.val_main_v3_apply, Cert.ReferenceIdeal.Read.val_main_v2_apply]
  exact h _

end Cert.Finite

end
-- ==== Proof.lean ====
/-
  Two kernels against one formula: the chamfer sum between 4096 planar points and a polyline of 32768 planar points.
  The kernel program sweeps the 4096 × 32768 table of pairwise distances tile by tile, twice — once keeping, for every
  point, the running minimum over the polyline; once, for every polyline point, the running minimum over the points — and
  sums the two rows of minima; each squared distance it computes as `(r - p)²` resp. `(p - r)²`, coordinate by coordinate.
  The reference expands the squared distance as `|p|² + |r|² - 2 p·r`, takes the minima along the two axes of the whole
  table and sums them.  On finite inputs the three spellings of the squared distance are one real number (a polynomial
  identity), the clipping constant is one word in both programs, and a minimum or a sum does not depend on the order or
  the grouping of its terms: the two results are one extended real.  Each program runs to its end leaving its arguments
  as they were; the idealization rewrites no operation, so there is nothing to preserve.
-/
import proofs.«106404_j2714419331831_1_alg».proof.Defs
import proofs.«106404_j2714419331831_1_alg».proof.Proof.Gen.Kernel
import proofs.«106404_j2714419331831_1_alg».proof.Proof.Gen.KernelIdeal
import proofs.«106404_j2714419331831_1_alg».proof.Proof.Gen.ReferenceIdeal
import proofs.«106404_j2714419331831_1_alg».proof.Proof.Gen.Pre_finite_inputs
import proofs.«106404_j2714419331831_1_alg».proof.Proof.Gen.ReferenceIdeal.Run
import proofs.«106404_j2714419331831_1_alg».proof.Proof.Gen.ReferenceIdeal.Read
import proofs.«106404_j2714419331831_1_alg».proof.Proof.KWhole
import proofs.«106404_j2714419331831_1_alg».proof.Proof.Whole
import proofs.«106404_j2714419331831_1_alg».proof.Proof.KernelValue
import proofs.«106404_j2714419331831_1_alg».proof.Proof.RefValue
import proofs.«106404_j2714419331831_1_alg».proof.Proof.Finite
import proofs.«106404_j2714419331831_1_alg».proof.Proof.Spec
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Whole.frame (F := Bits) m ρ
theorem frame_ki : Cert.frame_KernelIdeal := fun m ρ _ => Cert.KernelIdeal.Whole.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-! ## The two programs' point sets are the same functions of the arguments -/

theorem pts_eq (x0 : (⟨3, ![2, 4096, 2]⟩ : Shape).Idx → EReal) :
    Cert.ReferenceIdeal.Read.val_main_v1 (F := Ideal) x0 = Cert.KernelIdeal.KernelValue.ptsOf x0 := rfl
theorem refs_eq (x1 : (⟨3, ![2, 32768, 2]⟩ : Shape).Idx → EReal) :
    Cert.ReferenceIdeal.Read.val_main_v4 (F := Ideal) x1 = Cert.KernelIdeal.KernelValue.refsOf x1 := rfl

/-! ## The results agree -/

/-- From memories agreeing on the arguments, finite, both programs end with the same result: the chamfer sum, which on
    real coordinates does not depend on the spelling of the squared distance. -/
theorem algebraic : Cert.algebraic_KernelIdeal_ReferenceIdeal := by
  intro m ρ m' ρ' hpre hagree
  refine ⟨fun c => Cert.KernelIdeal.Whole.W4 m c (Proc.devRef .tc Cert.KernelIdeal.main_v11), ?_, ?_⟩
  · exact (θ_run Cert.KernelIdeal.defs _ _).mono (fun _ h c =>
      ⟨h c _ (Cert.KernelIdeal.Whole.mem_uc Cert.KernelIdeal.main_v11 (by decide)),
       (h c _ (Cert.KernelIdeal.Whole.mem_uc Cert.KernelIdeal.main_arg0 (by decide))).trans (Cert.KernelIdeal.Whole.W4_main_arg0 m c),
       (h c _ (Cert.KernelIdeal.Whole.mem_uc Cert.KernelIdeal.main_arg1 (by decide))).trans (Cert.KernelIdeal.Whole.W4_main_arg1 m c)⟩)
      (Cert.KernelIdeal.Whole.run_all m ρ)
  · refine (θ_run Cert.ReferenceIdeal.defs _ _).mono (fun _ h c => ⟨(h c).1.trans ?_, (h c).2⟩)
      (Cert.ReferenceIdeal.Value.run (F := Ideal) m' ρ')
    obtain ⟨h0, h1⟩ := Cert.Finite.allReal_of_pre _ _ (hpre c)
    rw [Cert.ReferenceIdeal.Read.val_main_v26_eq, Cert.ReferenceIdeal.RefValue.result_eq, (hagree c).1, (hagree c).2]
    refine Eq.trans ?_ (Cert.KernelIdeal.KernelValue.result_eq m c).symm
    funext _
    exact (Cert.Chamfer.chamfer_eq (Cert.Finite.allReal_pts _ h0) (Cert.Finite.allReal_refs _ h1)).symm

end Cert.Proof

/-- Everything the certificate claims. -/
theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
